-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S2x16000000 : Shape := ⟨2, ![2, 16000000]⟩
abbrev S16000000 : Shape := ⟨1, ![16000000]⟩
abbrev S64x1 : Shape := ⟨2, ![64, 1]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S16000000 : S_.BroadcastsInDim S16000000 (![] : Fin 0 → Fin S16000000.rank)
  reducesTo_S16000000_S_d0 : S16000000.ReducesTo [0] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg6 : FVec F S500000 .f32) (main_arg7 : FVec F S64x1 .f32) (main_v13 : IVec S_ 1) (main_v16 : IVec S500000 1) : IVec S_ 1 :=
  let main_c_5 : IVec S_ 1 := constantI S_ 1 1#1
  let main_v17 : IVec S_ 1 := (fun x v => Host.reduce IntOp.andi x v reducesTo_S500000_S_d0 h_S_) main_v16 main_c_5
  let main_v18 : IVec S_ 1 := andi main_v13 main_v17
  let main_v19 : FVec F S500000 .f32 := Host.absf main_arg6
  let main_cst_6 : FVec F S_ .f32 := constant S_ .f32 0x7F800000#32
  let main_v20 : FVec F S500000 .f32 := broadcastInDim S500000 ![] bcast_S_S500000 main_cst_6
  let main_v21 : IVec S500000 1 := cmpf .olt main_v19 main_v20
  let main_c_7 : IVec S_ 1 := constantI S_ 1 1#1
  let main_v22 : IVec S_ 1 := (fun x v => Host.reduce IntOp.andi x v reducesTo_S500000_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  main_v28

def fn {F : FTy → Type} [FloatOps F] (main_arg0 : FVec F S500000 .f32) (main_arg1 : FVec F S500000 .f32) (main_arg2 : IVec S500000 32) (main_arg3 : IVec S2x16000000 32) (main_arg4 : FVec F S16000000 .f32) (main_arg5 : FVec F S500000 .f32) (main_arg6 : FVec F S500000 .f32) (main_arg7 : FVec F S64x1 .f32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S500000 .f32 := Host.absf main_arg1
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S16000000 .f32 := Host.absf main_arg4
  let main_cst_2 : FVec F S_ .f32 := constant S_ .f32 0x7F800000#32
  let main_v10 : FVec F S16000000 .f32 := broadcastInDim S16000000 ![] bcast_S_S16000000 main_cst_2
  let main_v11 : IVec S16000000 1 := cmpf .olt main_v9 main_v10
  let main_c_3 : IVec S_ 1 := constantI S_ 1 1#1
  let main_v12 : IVec S_ 1 := (fun x v => Host.reduce IntOp.andi x v reducesTo_S16000000_S_d0 h_S_) main_v11 main_c_3
  let main_v13 : IVec S_ 1 := andi main_v8 main_v12
  let main_v14 : FVec F S500000 .f32 := Host.absf main_arg5
  let main_cst_4 : FVec F S_ .f32 := constant S_ .f32 0x7F800000#32
  let main_v15 : FVec F S500000 .f32 := broadcastInDim S500000 ![] bcast_S_S500000 main_cst_4
  let main_v16 : IVec S500000 1 := cmpf .olt main_v14 main_v15
  fn_part1 (F := F) main_arg6 main_arg7 main_v13 main_v16
-- ==== Kernel.lean ====
abbrev S500000 : Shape := ⟨1, ![500000]⟩
abbrev S2x16000000 : Shape := ⟨2, ![2, 16000000]⟩
abbrev S16000000 : Shape := ⟨1, ![16000000]⟩
abbrev S64x1 : Shape := ⟨2, ![64, 1]⟩
abbrev S1x16000000 : Shape := ⟨2, ![1, 16000000]⟩
abbrev S64 : Shape := ⟨1, ![64]⟩
abbrev S_ : Shape := ⟨0, ![]⟩
abbrev S500000x1 : Shape := ⟨2, ![500000, 1]⟩
abbrev S500000x2 : Shape := ⟨2, ![500000, 2]⟩
abbrev S16000000x1 : Shape := ⟨2, ![16000000, 1]⟩
abbrev S16000000x2 : Shape := ⟨2, ![16000000, 2]⟩
abbrev S125000x128 : Shape := ⟨2, ![125000, 128]⟩
abbrev S5000x128 : Shape := ⟨2, ![5000, 128]⟩
abbrev S96 : Shape := ⟨1, ![96]⟩
abbrev S500096 : Shape := ⟨1, ![500096]⟩
abbrev S3907x128 : Shape := ⟨2, ![3907, 128]⟩

abbrev nBuf : Space → Nat
  | .hbm => 71
  | .vmem => 14
  | .smem => 0
  | _ => 0

abbrev bufTy : (tb : Table) → Fin (tcTables nBuf tb) → BufTy
  | .hbm, ⟨0, _⟩ => ⟨S500000, .f32⟩
  | .hbm, ⟨1, _⟩ => ⟨S500000, .f32⟩
  | .hbm, ⟨2, _⟩ => ⟨S500000, .i32⟩
  | .hbm, ⟨3, _⟩ => ⟨S2x16000000, .i32⟩
  | .hbm, ⟨4, _⟩ => ⟨S16000000, .f32⟩
  | .hbm, ⟨5, _⟩ => ⟨S500000, .f32⟩
  | .hbm, ⟨6, _⟩ => ⟨S500000, .f32⟩
  | .hbm, ⟨7, _⟩ => ⟨S64x1, .f32⟩
  | .hbm, ⟨8, _⟩ => ⟨S1x16000000, .i32⟩
  | .hbm, ⟨9, _⟩ => ⟨S16000000, .i32⟩
  | .hbm, ⟨10, _⟩ => ⟨S1x16000000, .i32⟩
  | .hbm, ⟨11, _⟩ => ⟨S16000000, .i32⟩
  | .hbm, ⟨12, _⟩ => ⟨S64, .f32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S500000, .f32⟩
  | .hbm, ⟨22, _⟩ => ⟨S500000x1, .f32⟩
  | .hbm, ⟨23, _⟩ => ⟨S500000x1, .f32⟩
  | .hbm, ⟨24, _⟩ => ⟨S500000x2, .f32⟩
  | .hbm, ⟨25, _⟩ => ⟨S_, .i32⟩
  | .hbm, ⟨26, _⟩ => ⟨S16000000, .i32⟩
  | .hbm, ⟨27, _⟩ => ⟨S16000000, .i1⟩
  | .hbm, ⟨28, _⟩ => ⟨S_, .i32⟩
  | .hbm, ⟨29, _⟩ => ⟨S16000000, .i32⟩
  | .hbm, ⟨30, _⟩ => ⟨S16000000, .i32⟩
  | .hbm, ⟨31, _⟩ => ⟨S16000000, .i32⟩
  | .hbm, ⟨32, _⟩ => ⟨S16000000x1, .i32⟩
  | .hbm, ⟨33, _⟩ => ⟨S16000000x2, .f32⟩
  | .hbm, ⟨34, _⟩ => ⟨S16000000x1, .f32⟩
  | .hbm, ⟨35, _⟩ => ⟨S16000000, .f32⟩
  | .hbm, ⟨36, _⟩ => ⟨S16000000x1, .f32⟩
  | .hbm, ⟨37, _⟩ => ⟨S16000000, .f32⟩
  | .hbm, ⟨38, _⟩ => ⟨S125000x128, .f32⟩
  | .hbm, ⟨39, _⟩ => ⟨S125000x128, .f32⟩
  | .hbm, ⟨40, _⟩ => ⟨S125000x128, .f32⟩
  | .hbm, ⟨41, _⟩ => ⟨S125000x128, .f32⟩
  | .hbm, ⟨42, _⟩ => ⟨S16000000, .f32⟩
  | .hbm, ⟨43, _⟩ => ⟨S_, .f32⟩
  | .hbm, ⟨44, _⟩ => ⟨S500000, .f32⟩
  | .hbm, ⟨45, _⟩ => ⟨S16000000x1, .i32⟩
  | .hbm, ⟨46, _⟩ => ⟨S500000, .f32⟩
  | .hbm, ⟨47, _⟩ => ⟨S_, .f32⟩
  | .hbm, ⟨48, _⟩ => ⟨S96, .f32⟩
  | .hbm, ⟨49, _⟩ => ⟨S500096, .f32⟩
  | .hbm, ⟨50, _⟩ => ⟨S3907x128, .f32⟩
  | .hbm, ⟨51, _⟩ => ⟨S_, .f32⟩
  | .hbm, ⟨52, _⟩ => ⟨S96, .f32⟩
  | .hbm, ⟨53, _⟩ => ⟨S500096, .f32⟩
  | .hbm, ⟨54, _⟩ => ⟨S3907x128, .f32⟩
  | .hbm, ⟨55, _⟩ => ⟨S_, .f32⟩
  | .hbm, ⟨56, _⟩ => ⟨S96, .f32⟩
  | .hbm, ⟨57, _⟩ => ⟨S500096, .f32⟩
  | .hbm, ⟨58, _⟩ => ⟨S3907x128, .f32⟩
  | .hbm, ⟨59, _⟩ => ⟨S_, .f32⟩
  | .hbm, ⟨60, _⟩ => ⟨S96, .f32⟩
  | .hbm, ⟨61, _⟩ => ⟨S500096, .f32⟩
  | .hbm, ⟨62, _⟩ => ⟨S3907x128, .f32⟩
  | .hbm, ⟨63, _⟩ => ⟨S_, .f32⟩
  | .hbm, ⟨64, _⟩ => ⟨S96, .f32⟩
  | .hbm, ⟨65, _⟩ => ⟨S500096, .f32⟩
  | .hbm, ⟨66, _⟩ => ⟨S3907x128, .f32⟩
  | .hbm, ⟨67, _⟩ => ⟨S3907x128, .f32⟩
  | .hbm, ⟨68, _⟩ => ⟨S500096, .f32⟩
  | .hbm, ⟨69, _⟩ => ⟨S500000, .f32⟩
  | .hbm, ⟨70, _⟩ => ⟨S500000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S3907x128, .f32⟩
  | .local _ .vmem, ⟨9, _⟩ => ⟨S3907x128, .f32⟩
  | .local _ .vmem, ⟨10, _⟩ => ⟨S3907x128, .f32⟩
  | .local _ .vmem, ⟨11, _⟩ => ⟨S3907x128, .f32⟩
  | .local _ .vmem, ⟨12, _⟩ => ⟨S3907x128, .f32⟩
  | .local _ .vmem, ⟨13, _⟩ => ⟨S3907x128, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S3907x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S3907x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3907x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3907x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3907x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3907x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  shapeCasts_S64x1_S64 : S64x1.ShapeCasts S64
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  bcast_S_S16000000 : S_.BroadcastsInDim S16000000 (![] : Fin 0 → Fin S16000000.rank)
  bcast_S16000000_S16000000x1_0 : S16000000.BroadcastsInDim S16000000x1 (![0] : Fin 1 → Fin S16000000x1.rank)
  slices_S16000000x2_S16000000x1_0_0 : S16000000x2.Slices ![0, 0] S16000000x1
  shapeCasts_S16000000x1_S16000000 : S16000000x1.ShapeCasts S16000000
  slices_S16000000x2_S16000000x1_0_1 : S16000000x2.Slices ![0, 1] S16000000x1
  shapeCasts_S16000000_S125000x128 : S16000000.ShapeCasts S125000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S125000x128_S16000000 : S125000x128.ShapeCasts S16000000
  bcast_S_S96 : S_.BroadcastsInDim S96 (![] : Fin 0 → Fin S96.rank)
  concatenates_S500000_S96_S500096_d0 : Shape.Concatenates [S500000, S96] S500096 0
  shapeCasts_S500096_S3907x128 : S500096.ShapeCasts S3907x128
  inb_S3907x128_S3907x128_0_0 : ∀ a, (![0, 0] : Fin 2 → Nat) a + S3907x128.size a ≤ S3907x128.size a
  h_S3907x128 : 0 < S3907x128.numel
  shapeCasts_S3907x128_S3907x128 : S3907x128.ShapeCasts S3907x128
  shapeCasts_S3907x128_S500096 : S3907x128.ShapeCasts S500096
  slices_S500096_S500000_0 : S500096.Slices ![0] S500000
  gather_S64_S500000x1_S500000_n_0_n_n_0_1_1_wf : GatherDims.WF S64 S500000x1 S500000 [] [0] [] [0] [] 1 ![1]
  gather_S500000x2_S16000000x1_S16000000x2_1_0_n_n_0_1_12_wf : GatherDims.WF S500000x2 S16000000x1 S16000000x2 [1] [0] [] [0] [] 1 ![1, 2]
  scatter_S500000_S16000000x1_S16000000_n_0_0_1_wf : ScatterDims.WF S500000 S16000000x1 S16000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S125000x128.size a
  hwx0_0 : ∀ i : grid0.Coords, EltTy.bits .f32 = 32 ∨ (Rect.block (s := S125000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S125000x128.size a
  hwx0_1 : ∀ i : grid0.Coords, EltTy.bits .f32 = 32 ∨ (Rect.block (s := S125000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S125000x128.size a
  hwx0_2 : ∀ i : grid0.Coords, EltTy.bits .f32 = 32 ∨ (Rect.block (s := S125000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S125000x128.size a
  hwx0_3 : ∀ i : grid0.Coords, EltTy.bits .f32 = 32 ∨ (Rect.block (s := S125000x128) S5000x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S3907x128.size a ≤ S3907x128.size a
  hwx1_0 : ∀ i : grid1.Coords, EltTy.bits .f32 = 32 ∨ (Rect.block (s := S3907x128) S3907x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3907x128.size a ≤ S3907x128.size a
  hwx1_1 : ∀ i : grid1.Coords, EltTy.bits .f32 = 32 ∨ (Rect.block (s := S3907x128) S3907x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3907x128.size a ≤ S3907x128.size a
  hwx1_2 : ∀ i : grid1.Coords, EltTy.bits .f32 = 32 ∨ (Rect.block (s := S3907x128) S3907x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3907x128.size a ≤ S3907x128.size a
  hwx1_3 : ∀ i : grid1.Coords, EltTy.bits .f32 = 32 ∨ (Rect.block (s := S3907x128) S3907x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3907x128.size a ≤ S3907x128.size a
  hwx1_4 : ∀ i : grid1.Coords, EltTy.bits .f32 = 32 ∨ (Rect.block (s := S3907x128) S3907x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3907x128.size a ≤ S3907x128.size a
  hwx1_5 : ∀ i : grid1.Coords, EltTy.bits .f32 = 32 ∨ (Rect.block (s := S3907x128) S3907x128.size (cc1_transform_5 i) (hinb1_5 i)).WholeWords (EltTy.packing .f32)

variable [Facts₀]

def gather_S64_S500000x1_S500000_n_0_n_n_0_1_1 : GatherDims S64 S500000x1 S500000 where
  offsetDims := []
  collapsedSliceDims := [0]
  operandBatchingDims := []
  startIndicesBatchingDims := []
  startIndexMap := [0]
  indexVectorDim := 1
  sliceSizes := ![1]
  wf := gather_S64_S500000x1_S500000_n_0_n_n_0_1_1_wf
def gather_S500000x2_S16000000x1_S16000000x2_1_0_n_n_0_1_12 : GatherDims S500000x2 S16000000x1 S16000000x2 where
  offsetDims := [1]
  collapsedSliceDims := [0]
  operandBatchingDims := []
  startIndicesBatchingDims := []
  startIndexMap := [0]
  indexVectorDim := 1
  sliceSizes := ![1, 2]
  wf := gather_S500000x2_S16000000x1_S16000000x2_1_0_n_n_0_1_12_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S3907x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v39) S3907x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S3907x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S3907x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S3907x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S3907x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S500000 : Shape := ⟨1, ![500000]⟩
abbrev S2x16000000 : Shape := ⟨2, ![2, 16000000]⟩
abbrev S16000000 : Shape := ⟨1, ![16000000]⟩
abbrev S64x1 : Shape := ⟨2, ![64, 1]⟩
abbrev S500000x1 : Shape := ⟨2, ![500000, 1]⟩
abbrev S1x16000000 : Shape := ⟨2, ![1, 16000000]⟩
abbrev S16000000x1 : Shape := ⟨2, ![16000000, 1]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S500000, .f32⟩
  | .hbm, ⟨1, _⟩ => ⟨S500000, .f32⟩
  | .hbm, ⟨2, _⟩ => ⟨S500000, .i32⟩
  | .hbm, ⟨3, _⟩ => ⟨S2x16000000, .i32⟩
  | .hbm, ⟨4, _⟩ => ⟨S16000000, .f32⟩
  | .hbm, ⟨5, _⟩ => ⟨S500000, .f32⟩
  | .hbm, ⟨6, _⟩ => ⟨S500000, .f32⟩
  | .hbm, ⟨7, _⟩ => ⟨S64x1, .f32⟩
  | .hbm, ⟨8, _⟩ => ⟨S500000x1, .f32⟩
  | .hbm, ⟨9, _⟩ => ⟨S1x16000000, .i32⟩
  | .hbm, ⟨10, _⟩ => ⟨S16000000, .i32⟩
  | .hbm, ⟨11, _⟩ => ⟨S1x16000000, .i32⟩
  | .hbm, ⟨12, _⟩ => ⟨S16000000, .i32⟩
  | .hbm, ⟨13, _⟩ => ⟨S16000000x1, .f32⟩
  | .hbm, ⟨14, _⟩ => ⟨S_, .i32⟩
  | .hbm, ⟨15, _⟩ => ⟨S16000000, .i32⟩
  | .hbm, ⟨16, _⟩ => ⟨S16000000, .i1⟩
  | .hbm, ⟨17, _⟩ => ⟨S_, .i32⟩
  | .hbm, ⟨18, _⟩ => ⟨S16000000, .i32⟩
  | .hbm, ⟨19, _⟩ => ⟨S16000000, .i32⟩
  | .hbm, ⟨20, _⟩ => ⟨S16000000, .i32⟩
  | .hbm, ⟨21, _⟩ => ⟨S16000000x1, .i32⟩
  | .hbm, ⟨22, _⟩ => ⟨S16000000x1, .f32⟩
  | .hbm, ⟨23, _⟩ => ⟨S_, .f32⟩
  | .hbm, ⟨24, _⟩ => ⟨S16000000x1, .f32⟩
  | .hbm, ⟨25, _⟩ => ⟨S16000000x1, .f32⟩
  | .hbm, ⟨26, _⟩ => ⟨S16000000x1, .f32⟩
  | .hbm, ⟨27, _⟩ => ⟨S_, .i32⟩
  | .hbm, ⟨28, _⟩ => ⟨S16000000, .i32⟩
  | .hbm, ⟨29, _⟩ => ⟨S16000000, .i1⟩
  | .hbm, ⟨30, _⟩ => ⟨S_, .i32⟩
  | .hbm, ⟨31, _⟩ => ⟨S16000000, .i32⟩
  | .hbm, ⟨32, _⟩ => ⟨S16000000, .i32⟩
  | .hbm, ⟨33, _⟩ => ⟨S16000000, .i32⟩
  | .hbm, ⟨34, _⟩ => ⟨S16000000x1, .i32⟩
  | .hbm, ⟨35, _⟩ => ⟨S16000000, .i32⟩
  | .hbm, ⟨36, _⟩ => ⟨S_, .i32⟩
  | .hbm, ⟨37, _⟩ => ⟨S16000000, .i32⟩
  | .hbm, ⟨38, _⟩ => ⟨S16000000, .i1⟩
  | .hbm, ⟨39, _⟩ => ⟨S_, .i32⟩
  | .hbm, ⟨40, _⟩ => ⟨S16000000, .i32⟩
  | .hbm, ⟨41, _⟩ => ⟨S16000000, .i32⟩
  | .hbm, ⟨42, _⟩ => ⟨S16000000, .i32⟩
  | .hbm, ⟨43, _⟩ => ⟨S16000000x1, .i32⟩
  | .hbm, ⟨44, _⟩ => ⟨S16000000x1, .f32⟩
  | .hbm, ⟨45, _⟩ => ⟨S16000000x1, .f32⟩
  | .hbm, ⟨46, _⟩ => ⟨S_, .f32⟩
  | .hbm, ⟨47, _⟩ => ⟨S500000x1, .f32⟩
  | .hbm, ⟨48, _⟩ => ⟨S16000000x1, .i32⟩
  | .hbm, ⟨49, _⟩ => ⟨S500000x1, .f32⟩
  | .hbm, ⟨50, _⟩ => ⟨S500000x1, .f32⟩
  | .hbm, ⟨51, _⟩ => ⟨S500000x1, .f32⟩
  | .hbm, ⟨52, _⟩ => ⟨S500000x1, .f32⟩
  | .hbm, ⟨53, _⟩ => ⟨S500000x1, .f32⟩
  | .hbm, ⟨54, _⟩ => ⟨S500000x1, .f32⟩
  | .hbm, ⟨55, _⟩ => ⟨S500000x1, .f32⟩
  | .hbm, ⟨56, _⟩ => ⟨S500000x1, .f32⟩
  | .hbm, ⟨57, _⟩ => ⟨S500000x1, .f32⟩
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S500000_S500000x1_0 : S500000.BroadcastsInDim S500000x1 (![0] : Fin 1 → Fin S500000x1.rank)
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S16000000_S16000000x1_0 : S16000000.BroadcastsInDim S16000000x1 (![0] : Fin 1 → Fin S16000000x1.rank)
  bcast_S_S16000000 : S_.BroadcastsInDim S16000000 (![] : Fin 0 → Fin S16000000.rank)
  bcast_S_S16000000x1 : S_.BroadcastsInDim S16000000x1 (![] : Fin 0 → Fin S16000000x1.rank)
  bcast_S_S500000x1 : S_.BroadcastsInDim S500000x1 (![] : Fin 0 → Fin S500000x1.rank)
  gather_S500000x1_S16000000x1_S16000000x1_1_0_n_n_0_1_11_wf : GatherDims.WF S500000x1 S16000000x1 S16000000x1 [1] [0] [] [0] [] 1 ![1, 1]
  gather_S500000_S16000000x1_S16000000_n_0_n_n_0_1_1_wf : GatherDims.WF S500000 S16000000x1 S16000000 [] [0] [] [0] [] 1 ![1]
  gather_S64x1_S16000000x1_S16000000x1_1_0_n_n_0_1_11_wf : GatherDims.WF S64x1 S16000000x1 S16000000x1 [1] [0] [] [0] [] 1 ![1, 1]
  scatter_S500000x1_S16000000x1_S16000000x1_1_0_0_1_wf : ScatterDims.WF S500000x1 S16000000x1 S16000000x1 [1] [0] [0] 1

variable [Facts₀]

def gather_S500000x1_S16000000x1_S16000000x1_1_0_n_n_0_1_11 : GatherDims S500000x1 S16000000x1 S16000000x1 where
  offsetDims := [1]
  collapsedSliceDims := [0]
  operandBatchingDims := []
  startIndicesBatchingDims := []
  startIndexMap := [0]
  indexVectorDim := 1
  sliceSizes := ![1, 1]
  wf := gather_S500000x1_S16000000x1_S16000000x1_1_0_n_n_0_1_11_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def gather_S64x1_S16000000x1_S16000000x1_1_0_n_n_0_1_11 : GatherDims S64x1 S16000000x1 S16000000x1 where
  offsetDims := [1]
  collapsedSliceDims := [0]
  operandBatchingDims := []
  startIndicesBatchingDims := []
  startIndexMap := [0]
  indexVectorDim := 1
  sliceSizes := ![1, 1]
  wf := gather_S64x1_S16000000x1_S16000000x1_1_0_n_n_0_1_11_wf
def scatter_S500000x1_S16000000x1_S16000000x1_1_0_0_1 : ScatterDims S500000x1 S16000000x1 S16000000x1 where
  updateWindowDims := [1]
  insertedWindowDims := [0]
  scatterDimsToOperandDims := [0]
  indexVectorDim := 1
  wf := scatter_S500000x1_S16000000x1_S16000000x1_1_0_0_1_wf

class Facts : Prop extends Facts₀ where

variable [Facts]
-- ==== Proof.EdgeRegion.lean ====
/-
  The first kernel region, as a value. The region walks the edge arrays, laid out as 125000 rows of 128 lanes, in 25 tiles
  of 5000 rows; at each tile the body stores, element by element, (w · max(v, 0)) · s of the three input tiles. Every input
  tile and the output tile sit at the same rows, the 25 tiles cover the 125000 rows, so whatever the three input arrays
  hold when the region is entered, the output array ends holding that same expression of them at every index.
-/
import proofs.«122822_j52106543235553_1_alg».proof.Proof.Gen.KernelIdeal.Frame
import Idealize.ShloMosaic.Lib.Pipeline.Value

set_option maxRecDepth 16384

noncomputable section

namespace Cert.KernelIdeal.EdgeRegion

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- The edge message of three arrays of one shape, element by element: `(a2 · max(a0, 0)) · a1`. -/
abbrev edgeFn {s : Shape} (a0 a1 a2 : s.Idx → Elt F .f32) : s.Idx → Elt F .f32 :=
  fun i => FloatOps.mulf (FloatOps.mulf (a2 i) (FloatOps.maximumf (a0 i) (Scalar.ofBits .f32 0x00000000#32))) (a1 i)

theorem zero_offsets : (![0, 0] : Fin 2 → Nat) = fun _ => 0 := funext fun a => by fin_cases a <;> rfl

/-- The body's stored value is the edge message of its three loaded tiles (its casts to the same shape are identities). -/
theorem payload_eq (x0 x1 x2 : Vec F S5000x128 .f32) : k0_pay1 x0 x1 x2 = edgeFn x0 x1 x2 := by
  unfold k0_pay1
  simp only [shapeCast_self]
  rfl

/-- Over the 25 grid points: every input window sits at the output window's tile, and the output's tile row is below 25,
    its tile column 0. -/
theorem tile_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) ≤ 24 ∧ win0_3.index t (1 : Fin 2) ≤ 0 :=
  (by decide +kernel : ∀ t : Fin grid0.N, _)

/-- Every one of the 25 row tiles is some grid point's. -/
theorem tile_onto : ∀ (q0 : Fin 25), ∃ t : Fin cfg0.N, win0_3.index t = ![q0.val, 0] :=
  (by decide +kernel : ∀ (q0 : Fin 25), ∃ t : Fin grid0.N, win0_3.index t = ![q0.val, 0])

section
variable (V : (c : Dev nD) → (b : Ref sig .tc) → Buf (Elt F) ((c : Thread nD τ).loc b))

/-- What grid point `t` writes back is tile `t` of the edge message of the three input arrays as the region finds them. -/
theorem flushed_eq (c : Dev nD) (t : Fin cfg0.N) :
    (dat0 V c).flushed 3 t = ((cfg0.win 3).blk t).view.read (Elt F) (edgeFn (V c main_v26) (V c main_v27) (V c main_v28)) := by
  show (cfg0.win 3).cut (grid0.coords t) ((dat0 V c).after 3 t) = _
  rw [after0_3]
  unfold out0_3
  rw [View.canon_unit_zero zero_offsets]
  simp only [View.ld_unit_zero (S := S5000x128) zero_offsets]
  rw [payload_eq]
  obtain ⟨e0, e1, e2, e3, e4, e5, e6, e7⟩ := tile_facts t
  funext j
  show FloatOps.mulf (FloatOps.mulf (V c main_v28 (((cfg0.win 2).blk t).view.emb j)) (FloatOps.maximumf (V c main_v26 (((cfg0.win 0).blk t).view.emb j)) (Scalar.ofBits .f32 0x00000000#32))) (V c main_v27 (((cfg0.win 1).blk t).view.emb j))
    = FloatOps.mulf (FloatOps.mulf (V c main_v28 (((cfg0.win 3).blk t).view.emb j)) (FloatOps.maximumf (V c main_v26 (((cfg0.win 3).blk t).view.emb j)) (Scalar.ofBits .f32 0x00000000#32))) (V c main_v27 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 128 + 1 * (j 1).val = win0_3.index t (1 : Fin 2) * 128 + 1 * (j 1).val; omega
  rw [h0, h1, h2]

/-- An index of the output array is in point `t`'s tile iff each coordinate is in the tile's range on its axis. -/
theorem mem_tile (t : Fin cfg0.N) (i : S125000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v29).slice (win0_3.rect t)).set ↔ _
  rw [View.set_slice_whole, Rect.mem_set_unit]
  exact Iff.rfl

/-- Every index of the output array is in the tile of the grid point whose tile row is its row divided by 5000. -/
theorem covered (i : S125000x128.Idx) :
    ∃ t : Fin cfg0.N, (cfg0.win 3).flush t = true ∧ i ∈ ((cfg0.win 3).blk t).view.set := by
  have hi0 : (i 0).val < 125000 := (i 0).isLt
  have hi1 : (i 1).val < 128 := (i 1).isLt
  obtain ⟨t, ht⟩ := tile_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_tile]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY after the region: the edge message of the three input arrays as the region finds them. -/
theorem final (c : Dev nD) :
    (dat0 V c).arrAt 3 cfg0.N = edgeFn (V c main_v26) (V c main_v27) (V c main_v28) :=
  (dat0 V c).arrAt_eq_of_cover 3 _ (fun t _ => flushed_eq V c t) covered

end

end Cert.KernelIdeal.EdgeRegion

end
-- ==== Proof.NodeRegion.lean ====
/-
  The second kernel region, as a value. Its grid is one point and every window's block is its whole array of 3907 rows of
  128 lanes; the body stores, element by element, ((((0 − a0) + a1) + a2) + a3) / a4 of its five inputs. So whatever the
  five input arrays hold when the region is entered, the output array ends holding that expression of them at every index.
-/
import proofs.«122822_j52106543235553_1_alg».proof.Proof.Gen.KernelIdeal.Frame
import Idealize.ShloMosaic.Lib.Pipeline.Value

set_option maxRecDepth 16384

noncomputable section

namespace Cert.KernelIdeal.NodeRegion

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- The node update of five arrays of one shape, element by element: `((((0 − a0) + a1) + a2) + a3) / a4`. -/
abbrev nodeFn {s : Shape} (a0 a1 a2 a3 a4 : s.Idx → Elt F .f32) : s.Idx → Elt F .f32 :=
  fun i => FloatOps.divf (FloatOps.addf (FloatOps.addf (FloatOps.addf (FloatOps.subf (Scalar.ofBits .f32 0x00000000#32) (a0 i)) (a1 i)) (a2 i)) (a3 i)) (a4 i)

theorem zero_offsets : (![0, 0] : Fin 2 → Nat) = fun _ => 0 := funext fun a => by fin_cases a <;> rfl

/-- The body's stored value is the node update of its five loaded blocks (its casts to the same shape are identities). -/
theorem payload_eq (x0 x1 x2 x3 x4 : Vec F S3907x128 .f32) : k1_pay1 x0 x1 x2 x3 x4 = nodeFn x0 x1 x2 x3 x4 := by
  unfold k1_pay1
  simp only [shapeCast_self]
  rfl

/-- At the one grid point every window's block is block (0, 0). -/
theorem block_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

section
variable (V : (c : Dev nD) → (b : Ref sig .tc) → Buf (Elt F) ((c : Thread nD τ).loc b))

/-- What the grid point writes back is the node update of the five input arrays as the region finds them, read through
    the output's block. -/
theorem flushed_eq (c : Dev nD) (t : Fin cfg1.N) :
    (dat1 V c).flushed 5 t = ((cfg1.win 5).blk t).view.read (Elt F)
      (nodeFn (V c main_v36) (V c main_v39) (V c main_v42) (V c main_v45) (V c main_v48)) := by
  show (cfg1.win 5).cut (grid1.coords t) ((dat1 V c).after 5 t) = _
  rw [after1_5]
  unfold out1_5
  rw [View.canon_unit_zero zero_offsets]
  simp only [View.ld_unit_zero (S := S3907x128) zero_offsets]
  rw [payload_eq]
  obtain ⟨e0, e1, e2, e3, e4, e5, e6, e7, e8, e9, e10, e11⟩ := block_facts t
  funext j
  show FloatOps.divf (FloatOps.addf (FloatOps.addf (FloatOps.addf (FloatOps.subf (Scalar.ofBits .f32 0x00000000#32) (V c main_v36 (((cfg1.win 0).blk t).view.emb j))) (V c main_v39 (((cfg1.win 1).blk t).view.emb j))) (V c main_v42 (((cfg1.win 2).blk t).view.emb j))) (V c main_v45 (((cfg1.win 3).blk t).view.emb j))) (V c main_v48 (((cfg1.win 4).blk t).view.emb j))
    = FloatOps.divf (FloatOps.addf (FloatOps.addf (FloatOps.addf (FloatOps.subf (Scalar.ofBits .f32 0x00000000#32) (V c main_v36 (((cfg1.win 5).blk t).view.emb j))) (V c main_v39 (((cfg1.win 5).blk t).view.emb j))) (V c main_v42 (((cfg1.win 5).blk t).view.emb j))) (V c main_v45 (((cfg1.win 5).blk t).view.emb j))) (V c main_v48 (((cfg1.win 5).blk t).view.emb j))
  have h0 : ((cfg1.win 0).blk t).view.emb j = ((cfg1.win 5).blk t).view.emb j := by
    funext a; apply Fin.ext
    match a with
    | ⟨0, _⟩ => show win1_0.index t (0 : Fin 2) * 3907 + 1 * (j 0).val = win1_5.index t (0 : Fin 2) * 3907 + 1 * (j 0).val; omega
    | ⟨1, _⟩ => show win1_0.index t (1 : Fin 2) * 128 + 1 * (j 1).val = win1_5.index t (1 : Fin 2) * 128 + 1 * (j 1).val; omega
  have h1 : ((cfg1.win 1).blk t).view.emb j = ((cfg1.win 5).blk t).view.emb j := by
    funext a; apply Fin.ext
    match a with
    | ⟨0, _⟩ => show win1_1.index t (0 : Fin 2) * 3907 + 1 * (j 0).val = win1_5.index t (0 : Fin 2) * 3907 + 1 * (j 0).val; omega
    | ⟨1, _⟩ => show win1_1.index t (1 : Fin 2) * 128 + 1 * (j 1).val = win1_5.index t (1 : Fin 2) * 128 + 1 * (j 1).val; omega
  have h2 : ((cfg1.win 2).blk t).view.emb j = ((cfg1.win 5).blk t).view.emb j := by
    funext a; apply Fin.ext
    match a with
    | ⟨0, _⟩ => show win1_2.index t (0 : Fin 2) * 3907 + 1 * (j 0).val = win1_5.index t (0 : Fin 2) * 3907 + 1 * (j 0).val; omega
    | ⟨1, _⟩ => show win1_2.index t (1 : Fin 2) * 128 + 1 * (j 1).val = win1_5.index t (1 : Fin 2) * 128 + 1 * (j 1).val; omega
  have h3 : ((cfg1.win 3).blk t).view.emb j = ((cfg1.win 5).blk t).view.emb j := by
    funext a; apply Fin.ext
    match a with
    | ⟨0, _⟩ => show win1_3.index t (0 : Fin 2) * 3907 + 1 * (j 0).val = win1_5.index t (0 : Fin 2) * 3907 + 1 * (j 0).val; omega
    | ⟨1, _⟩ => show win1_3.index t (1 : Fin 2) * 128 + 1 * (j 1).val = win1_5.index t (1 : Fin 2) * 128 + 1 * (j 1).val; omega
  have h4 : ((cfg1.win 4).blk t).view.emb j = ((cfg1.win 5).blk t).view.emb j := by
    funext a; apply Fin.ext
    match a with
    | ⟨0, _⟩ => show win1_4.index t (0 : Fin 2) * 3907 + 1 * (j 0).val = win1_5.index t (0 : Fin 2) * 3907 + 1 * (j 0).val; omega
    | ⟨1, _⟩ => show win1_4.index t (1 : Fin 2) * 128 + 1 * (j 1).val = win1_5.index t (1 : Fin 2) * 128 + 1 * (j 1).val; omega
  rw [h0, h1, h2, h3, h4]

/-- An index of the output array is in the point's block iff each coordinate is in the block's range on its axis. -/
theorem mem_block (t : Fin cfg1.N) (i : S3907x128.Idx) :
    i ∈ ((cfg1.win 5).blk t).view.set ↔ ∀ a : Fin 2, win1_5.index t a * S3907x128.size a ≤ (i a).val ∧ (i a).val < win1_5.index t a * S3907x128.size a + S3907x128.size a := by
  show i ∈ ((View.whole main_v49).slice (win1_5.rect t)).set ↔ _
  rw [View.set_slice_whole, Rect.mem_set_unit]
  exact Iff.rfl

/-- Every index of the output array is in the one point's block. -/
theorem covered (i : S3907x128.Idx) :
    ∃ t : Fin cfg1.N, (cfg1.win 5).flush t = true ∧ i ∈ ((cfg1.win 5).blk t).view.set := by
  have hi0 : (i 0).val < 3907 := (i 0).isLt
  have hi1 : (i 1).val < 128 := (i 1).isLt
  let t : Fin cfg1.N := ⟨0, by decide⟩
  obtain ⟨e0, e1, e2, e3, e4, e5, e6, e7, e8, e9, e10, e11⟩ := block_facts t
  refine ⟨t, flush1_5 t, ?_⟩
  rw [mem_block]
  intro a
  match a with
  | ⟨0, _⟩ => show win1_5.index t (0 : Fin 2) * 3907 ≤ (i 0).val ∧ (i 0).val < win1_5.index t (0 : Fin 2) * 3907 + 3907; omega
  | ⟨1, _⟩ => show win1_5.index t (1 : Fin 2) * 128 ≤ (i 1).val ∧ (i 1).val < win1_5.index t (1 : Fin 2) * 128 + 128; omega

/-- THE OUTPUT ARRAY after the region: the node update of the five input arrays as the region finds them. -/
theorem final (c : Dev nD) :
    (dat1 V c).arrAt 5 cfg1.N = nodeFn (V c main_v36) (V c main_v39) (V c main_v42) (V c main_v45) (V c main_v48) :=
  (dat1 V c).arrAt_eq_of_cover 5 _ (fun t _ => flushed_eq V c t) covered

end

end Cert.KernelIdeal.NodeRegion

end
-- ==== Proof.Spec.lean ====
/-
  The result of one message-passing step on a graph of 500000 nodes and 16000000 directed edges, as ONE function of the
  argument arrays, node by node.

  An edge e has a source word ei[0, e] and a destination word ei[1, e]. A source word is first wrapped (a negative word
  has the number of nodes added to it) and then clamped into the node range: that is the node the edge reads, src(e).
  A node n has a type word nt[n], wrapped against 64 and clamped into [0, 63]: typ(n). The edge's message is

      edge(e) = (w[e] · max(v[src(e)], 0)) · tp[typ(src(e)), 0],

  the messages are summed at the node the destination word names (an edge whose destination word, read as a signed
  integer, is no node's number is dropped),

      msg(n) = 0 + Σ { edge(e) : ei[1, e] = n },

  and the update of node n is

      out(n) = (((−v[n] + msg(n)) + stim[n]) + vrest[n]) / tau[n]

  on the extended reals. The zero is the float word 0x00000000, kept as the word: both programs spell the same word.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The float word of +0.0 at the exact instance. -/
abbrev z0 : Ideal .f32 := FloatOps.ofBits (F := Ideal) .f32 0x00000000#32

/-- A negative index word wraps once around an axis of extent `K`: `x < 0 ? x + K : x`, on 32-bit words. -/
def wrap (K x : BitVec 32) : BitVec 32 :=
  Scalar.select (IntOp.cmpi .slt x 0#32) (IntOp.addi x K) x

/-- A start index word read as a signed integer and clamped into `[0, M − 1]`. -/
def clampTo (M : Nat) (hM : 0 < M) (x : BitVec 32) : Fin M := ⟨min x.toInt.toNat (M - 1), by omega⟩

/-- The node an edge reads: its source word wrapped against the number of nodes, then clamped into the node range. -/
def src (ei : IVec ⟨2, ![2, 16000000]⟩ 32) (e : Fin 16000000) : Fin 500000 :=
  clampTo 500000 (by decide) (wrap 500000#32 (ei (ix2 0 e)))

/-- A node's row of the type table: its type word wrapped against 64, then clamped into `[0, 63]`. -/
def typ (nt : IVec ⟨1, ![500000]⟩ 32) (n : Fin 500000) : Fin 64 :=
  clampTo 64 (by decide) (wrap 64#32 (nt (ix1 n)))

section
variable (v stim : FVec Ideal ⟨1, ![500000]⟩ .f32) (nt : IVec ⟨1, ![500000]⟩ 32) (ei : IVec ⟨2, ![2, 16000000]⟩ 32)
  (w : FVec Ideal ⟨1, ![16000000]⟩ .f32) (vrest tau : FVec Ideal ⟨1, ![500000]⟩ .f32) (tp : FVec Ideal ⟨2, ![64, 1]⟩ .f32)

/-- One edge's message: the weight times the rectified source voltage, times the source's type scale. -/
def edge (e : Fin 16000000) : Ideal .f32 :=
  FloatOps.mulf (FloatOps.mulf (w (ix1 e)) (FloatOps.maximumf (v (ix1 (src ei e))) z0)) (tp (ix2 (typ nt (src ei e)) 0))

/-- The messages arriving at node `n`: zero plus the sum over the edges whose destination word is `n`. -/
def msg (n : Fin 500000) : Ideal .f32 :=
  z0 + ∑ e ∈ Finset.univ.filter (fun e : Fin 16000000 => (ei (ix2 1 e)).toInt = (n.val : Int)), edge v nt ei w tp e

/-- The update of node `n`. -/
def out (n : Fin 500000) : Ideal .f32 :=
  FloatOps.hostDivf (FloatOps.addf (FloatOps.addf (FloatOps.addf (FloatOps.hostNegf (v (ix1 n))) (msg v nt ei w tp n))
    (stim (ix1 n))) (vrest (ix1 n))) (tau (ix1 n))

end

/-- Zero minus `x` is the negation of `x` on every extended real, the infinities included. -/
theorem zero_subf (x : Ideal .f32) : FloatOps.subf (F := Ideal) z0 x = FloatOps.hostNegf x := by
  show (Ideal.ofBits .f32 0x00000000#32 : EReal) - x = -x
  rw [Ideal.ofBits_zero_f32, zero_sub]

end Cert.Spec

end
-- ==== Proof.LibGatherRows.lean ====
/-
  A gather of whole rows read at an index. For an operand [N, C] (or a flat operand [N]) and a column [R, 1] of start
  indices, the gather that collapses the row axis and keeps the columns reads, at (r, c), the operand's row at the start
  index idx[r, 0] taken as a signed integer and clamped into [0, N - 1], column c.
-/
import Idealize.ShloMosaic.PureOps.Ideal
import Idealize.ShloMosaic.Lib.ValueIdx

noncomputable section

namespace Idealize.ShloMosaic.GatherRows

open Idealize.ShloMosaic Idealize.ShloMosaic.ValueIdx

/-- A natural number clamped at `N - 1` is below a positive `N`. -/
theorem clamp_lt {N : Nat} (hN : 0 < N) (k : Nat) : min k (N - 1) < N := by omega

/-! ## Rows of a matrix at a column of start indices -/

section Rows
variable {α : Type}

/-- The dimension numbers of `x[idx[:, 0], :]` for an operand `[N, C]`, a column `[R, 1]` of start indices and a result
    `[R, C]`: the row axis collapsed and mapped by the start index, the column axis kept whole as the result's offset
    axis; their conditions `wf` are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The conditions hold only for an operand with at least one row: a slice of one row fits. -/
theorem rows_pos {N R C : Nat} (wf : GatherDims.WF ⟨2, ![N, C]⟩ ⟨2, ![R, 1]⟩ ⟨2, ![R, C]⟩ [1] [0] [] [0] [] 1 ![1, C]) :
    0 < N :=
  (rowDims N R C wf).slice_le 0

/-- THE ROW GATHER READ AT `(r, c)`: the operand's row at the start index `idx[r, 0]`, read signed and clamped into
    `[0, N − 1]`, at column `c`. -/
theorem gather_rows_apply {N R C w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r 0)).toInt.toNat (N - 1), clamp_lt (rows_pos wf) _⟩ c) := by
  unfold Host.gather
  congr 1
  funext a
  refine Fin.ext ?_
  match a with
  | ⟨0, _⟩ =>
    show (rowDims N R C wf).start (ix2 r c) idx 0 + (rowDims N R C wf).batchCoord (ix2 r c) 0
      + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
      + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ ([0] : List (Fin 2))))]
    simp only [Nat.add_zero, Nat.zero_add]
    rfl

end Rows

/-! ## A flat array at a column of start indices -/

section Flat
variable {α : Type}

/-- The dimension numbers of `x[idx[:, 0]]` for a flat operand `[N]`, a column `[R, 1]` of start indices and a result
    `[R]`: the operand's one axis collapsed and mapped by the start index, no offset axis; their conditions `wf` are
    decided on a program's literal shapes. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The conditions hold only for a non-empty operand: a slice of one element fits. -/
theorem flat_pos {N R : Nat} (wf : GatherDims.WF ⟨1, ![N]⟩ ⟨2, ![R, 1]⟩ ⟨1, ![R]⟩ [] [0] [] [0] [] 1 ![1]) : 0 < N :=
  (flatDims N R wf).slice_le 0

/-- THE FLAT GATHER READ AT `r`: the operand at the start index `idx[r, 0]`, read signed and clamped into
    `[0, N − 1]`. -/
theorem gather_flat_apply {N R w : Nat} (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (flatDims N R wf) x idx (ix1 r)
      = x (ix1 ⟨min (idx (ix2 r 0)).toInt.toNat (N - 1), clamp_lt (flat_pos wf) _⟩) := by
  unfold Host.gather
  congr 1
  funext a
  obtain rfl : a = 0 := Subsingleton.elim _ _
  refine Fin.ext ?_
  show (flatDims N R wf).start (ix1 r) idx 0 + (flatDims N R wf).batchCoord (ix1 r) 0
    + (flatDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 r) ⟨List.idxOf (0 : Fin 1) (flatDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

end Flat

/-! ## Two gathers in a row -/

section Compose
variable {α : Type}

/-- Rows of gathered rows are gathered rows: taking the rows of `x[zc[:, 0], :]` at the start indices `idx` is taking the
    rows of `x` at any column `zr` of start indices that reads, at every `r`, the column `zc` at `idx[r, 0]` read signed
    and clamped into `[0, N − 1]` (for instance an elementwise function of a flat array gathered at `idx`, when `zc` is
    the same function of the flat array). -/
theorem gather_rows_rows {M N R C w w' : Nat}
    (wf₁ : GatherDims.WF ⟨2, ![M, C]⟩ ⟨2, ![N, 1]⟩ ⟨2, ![N, C]⟩ [1] [0] [] [0] [] 1 ![1, C])
    (wf₂ : GatherDims.WF ⟨2, ![N, C]⟩ ⟨2, ![R, 1]⟩ ⟨2, ![R, C]⟩ [1] [0] [] [0] [] 1 ![1, C])
    (wf₃ : GatherDims.WF ⟨2, ![M, C]⟩ ⟨2, ![R, 1]⟩ ⟨2, ![R, C]⟩ [1] [0] [] [0] [] 1 ![1, C])
    (x : (⟨2, ![M, C]⟩ : Shape).Idx → α) (zc : IVec ⟨2, ![N, 1]⟩ w') (idx : IVec ⟨2, ![R, 1]⟩ w)
    (zr : IVec ⟨2, ![R, 1]⟩ w')
    (h : ∀ r : Fin R, zr (ix2 r 0) = zc (ix2 ⟨min (idx (ix2 r 0)).toInt.toNat (N - 1), clamp_lt (rows_pos wf₂) _⟩ 0)) :
    Host.gather (rowDims N R C wf₂) (Host.gather (rowDims M N C wf₁) x zc) idx
      = Host.gather (rowDims M R C wf₃) x zr := by
  funext i
  obtain ⟨r, c, rfl⟩ : ∃ (r : Fin R) (c : Fin C), i = ix2 r c := ⟨i 0, i 1, eq_ix2 i⟩
  rw [gather_rows_apply, gather_rows_apply, gather_rows_apply, h r]

end Compose

end Idealize.ShloMosaic.GatherRows

end
-- ==== Proof.LibScatterAddRows.lean ====
/-
  A float scatter-add along the leading axis, read at an index, on the extended reals. For an operand [N] (or a column
  operand [N, 1]), a column [R, 1] of destination words and updates [R] (or [R, 1]), the accumulating scatter that
  inserts the leading axis — jnp's x.at[idx[:, 0]].add(u), a segment sum — leaves at row n the operand's element plus
  the sum of the updates whose destination word, read as a signed integer and NOT clamped, is n. An update whose word
  names no row is dropped. The flat form and the column form therefore hold the same sums.
-/
import Idealize.ShloMosaic.PureOps.Ideal
import Idealize.ShloMosaic.Lib.ValueIdx
import Idealize.ShloMosaic.Lib.ValueIdxRank1

noncomputable section

namespace Idealize.ShloMosaic.ScatterAddRows

open Idealize.ShloMosaic Idealize.ShloMosaic.ValueIdx

/-! ## A flat operand -/

section Flat

/-- The dimension numbers of `x.at[idx[:, 0]].add(u)` for a flat operand `[N]`, a column `[R, 1]` of destination words and
    updates `[R]`: no window axis, the operand's one axis inserted and named by the word. -/
abbrev flatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

/-- Update `e` starts at its destination word, read signed. -/
theorem flat_start (idx : IVec ⟨2, ![R, 1]⟩ w) (e : Fin R) :
    (flatDims N R wf).start (ix1 e) idx 0 = (idx (ix2 e 0)).toInt := by
  unfold ScatterDims.start
  rw [dif_pos (show (0 : Fin 1) ∈ (flatDims N R wf).scatterDimsToOperandDims from List.mem_singleton.mpr rfl)]
  have hsi : (flatDims N R wf).siIdx (ix1 e) ⟨List.idxOf (0 : Fin 1) (flatDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The inserted axis has no window coordinate. -/
theorem flat_window (e : Fin R) : (flatDims N R wf).window (ix1 e) 0 = 0 := by
  unfold ScatterDims.window
  have hk : (0 : Fin 1) ∉ (flatDims N R wf).sKept :=
    (show (0 : Fin 1) ∉ (List.finRange 1).filter (· ∉ ([0] : List (Fin 1))) from by decide)
  rw [dif_neg hk]

/-- Update `e` lands on row `n` exactly when its destination word is `n`. -/
theorem flat_lands (idx : IVec ⟨2, ![R, 1]⟩ w) (e : Fin R) (n : Fin N) :
    (flatDims N R wf).resultIdx? (ix1 e) idx = some (ix1 n) ↔ (idx (ix2 e 0)).toInt = (n.val : Int) := by
  have hn : n.val < N := n.isLt
  unfold ScatterDims.resultIdx?
  constructor
  · intro h
    split at h
    · rename_i hh
      have h0 := congrArg (fun f : (⟨1, ![N]⟩ : Shape).Idx => (f 0).val) (Option.some.inj h)
      have hb := (hh 0).1
      rw [flat_start, flat_window] at hb
      simp only [flat_start, flat_window] at h0
      change ((idx (ix2 e 0)).toInt + ((0 : Nat) : Int)).toNat = n.val at h0
      omega
    · exact absurd h (by simp)
  · intro h
    have hall : ∀ a : Fin 1, 0 ≤ (flatDims N R wf).start (ix1 e) idx a + ((flatDims N R wf).window (ix1 e) a : Int)
        ∧ (flatDims N R wf).start (ix1 e) idx a + ((flatDims N R wf).window (ix1 e) a : Int) < (((⟨1, ![N]⟩ : Shape).size a : Nat) : Int) := by
      intro a
      obtain rfl : a = 0 := Subsingleton.elim _ _
      rw [flat_start, flat_window, h]
      change (0 : Int) ≤ (n.val : Int) + ((0 : Nat) : Int) ∧ (n.val : Int) + ((0 : Nat) : Int) < ((N : Nat) : Int)
      omega
    rw [dif_pos hall]
    congr 1
    funext a
    obtain rfl : a = 0 := Subsingleton.elim _ _
    refine Fin.ext ?_
    show ((flatDims N R wf).start (ix1 e) idx 0 + ((flatDims N R wf).window (ix1 e) 0 : Int)).toNat = n.val
    rw [flat_start, flat_window, h]
    omega

/-- THE FLAT SCATTER-ADD READ AT ROW `n`: the operand's element plus the sum of the updates whose destination word is `n`. -/
theorem scatterAdd_flat_apply (x : FVec Ideal ⟨1, ![N]⟩ .f32) (idx : IVec ⟨2, ![R, 1]⟩ w) (upd : FVec Ideal ⟨1, ![R]⟩ .f32)
    (n : Fin N) :
    Host.scatterAdd (F := Ideal) (flatDims N R wf) x idx upd (ix1 n)
      = x (ix1 n) + ∑ e ∈ Finset.univ.filter (fun e : Fin R => (idx (ix2 e 0)).toInt = (n.val : Int)), upd (ix1 e) := by
  show x (ix1 n) + ∑ j ∈ Finset.univ.filter (fun j => (flatDims N R wf).resultIdx? j idx = some (ix1 n)), upd j = _
  congr 1
  refine Finset.sum_equiv (idxEquiv1 (n := R)) (fun j => ?_) (fun j _ => ?_)
  · rw [Finset.mem_filter, Finset.mem_filter]
    obtain ⟨e, rfl⟩ : ∃ e : Fin R, j = ix1 e := ⟨j 0, eq_ix1 j⟩
    simp only [Finset.mem_univ, true_and]
    exact flat_lands wf idx e n
  · exact congrArg upd (eq_ix1 j)

end Flat

/-! ## A column operand -/

section Col

/-- The dimension numbers of the same accumulation for a column operand `[N, 1]` and updates `[R, 1]`: the updates' unit
    axis is the window axis and goes to the operand's unit axis. -/
abbrev colDims (N R : Nat) (wf : ScatterDims.WF ⟨2, ![N, 1]⟩ ⟨2, ![R, 1]⟩ ⟨2, ![R, 1]⟩ [1] [0] [0] 1) :
    ScatterDims ⟨2, ![N, 1]⟩ ⟨2, ![R, 1]⟩ ⟨2, ![R, 1]⟩ where
  updateWindowDims := [1]
  insertedWindowDims := [0]
  scatterDimsToOperandDims := [0]
  indexVectorDim := 1
  wf := wf

variable {N R w : Nat} (wf : ScatterDims.WF ⟨2, ![N, 1]⟩ ⟨2, ![R, 1]⟩ ⟨2, ![R, 1]⟩ [1] [0] [0] 1)

/-- On the row axis update `(e, 0)` starts at its destination word, read signed. -/
theorem col_start0 (idx : IVec ⟨2, ![R, 1]⟩ w) (e : Fin R) :
    (colDims N R wf).start (ix2 e 0) idx 0 = (idx (ix2 e 0)).toInt := by
  unfold ScatterDims.start
  rw [dif_pos (show (0 : Fin 2) ∈ (colDims N R wf).scatterDimsToOperandDims from List.mem_singleton.mpr rfl)]
  have hsi : (colDims N R wf).siIdx (ix2 e 0) ⟨List.idxOf (0 : Fin 2) (colDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the unit axis every update starts at 0. -/
theorem col_start1 (idx : IVec ⟨2, ![R, 1]⟩ w) (e : Fin R) : (colDims N R wf).start (ix2 e 0) idx 1 = 0 := by
  unfold ScatterDims.start
  have hk : (1 : Fin 2) ∉ (colDims N R wf).scatterDimsToOperandDims := (show (1 : Fin 2) ∉ ([0] : List (Fin 2)) from by decide)
  rw [dif_neg hk]

/-- The inserted row axis has no window coordinate. -/
theorem col_window0 (e : Fin R) : (colDims N R wf).window (ix2 e 0) 0 = 0 := by
  unfold ScatterDims.window
  have hk : (0 : Fin 2) ∉ (colDims N R wf).sKept :=
    (show (0 : Fin 2) ∉ (List.finRange 2).filter (· ∉ ([0] : List (Fin 2))) from by decide)
  rw [dif_neg hk]

/-- The unit axis's window coordinate is the update's own, 0. -/
theorem col_window1 (e : Fin R) : (colDims N R wf).window (ix2 e 0) 1 = 0 := by
  unfold ScatterDims.window
  have hk : (1 : Fin 2) ∈ (colDims N R wf).sKept :=
    (show (1 : Fin 2) ∈ (List.finRange 2).filter (· ∉ ([0] : List (Fin 2))) from by decide)
  rw [dif_pos hk]
  rfl

/-- Update `(e, 0)` lands on `(n, 0)` exactly when its destination word is `n`. -/
theorem col_lands (idx : IVec ⟨2, ![R, 1]⟩ w) (e : Fin R) (n : Fin N) :
    (colDims N R wf).resultIdx? (ix2 e 0) idx = some (ix2 n 0) ↔ (idx (ix2 e 0)).toInt = (n.val : Int) := by
  have hn : n.val < N := n.isLt
  unfold ScatterDims.resultIdx?
  constructor
  · intro h
    split at h
    · rename_i hh
      have h0 := congrArg (fun f : (⟨2, ![N, 1]⟩ : Shape).Idx => (f 0).val) (Option.some.inj h)
      have hb := (hh 0).1
      rw [col_start0, col_window0] at hb
      simp only [col_start0, col_window0] at h0
      change ((idx (ix2 e 0)).toInt + ((0 : Nat) : Int)).toNat = n.val at h0
      omega
    · exact absurd h (by simp)
  · intro h
    have hall : ∀ a : Fin 2, 0 ≤ (colDims N R wf).start (ix2 e 0) idx a + ((colDims N R wf).window (ix2 e 0) a : Int)
        ∧ (colDims N R wf).start (ix2 e 0) idx a + ((colDims N R wf).window (ix2 e 0) a : Int) < (((⟨2, ![N, 1]⟩ : Shape).size a : Nat) : Int) := by
      intro a
      match a with
      | ⟨0, _⟩ =>
        show 0 ≤ (colDims N R wf).start (ix2 e 0) idx 0 + ((colDims N R wf).window (ix2 e 0) 0 : Int)
          ∧ (colDims N R wf).start (ix2 e 0) idx 0 + ((colDims N R wf).window (ix2 e 0) 0 : Int) < ((N : Nat) : Int)
        rw [col_start0, col_window0, h]; omega
      | ⟨1, _⟩ =>
        show 0 ≤ (colDims N R wf).start (ix2 e 0) idx 1 + ((colDims N R wf).window (ix2 e 0) 1 : Int)
          ∧ (colDims N R wf).start (ix2 e 0) idx 1 + ((colDims N R wf).window (ix2 e 0) 1 : Int) < ((1 : Nat) : Int)
        rw [col_start1, col_window1]; omega
    rw [dif_pos hall]
    congr 1
    funext a
    refine Fin.ext ?_
    match a with
    | ⟨0, _⟩ =>
      show ((colDims N R wf).start (ix2 e 0) idx 0 + ((colDims N R wf).window (ix2 e 0) 0 : Int)).toNat = n.val
      rw [col_start0, col_window0, h]; omega
    | ⟨1, _⟩ =>
      show ((colDims N R wf).start (ix2 e 0) idx 1 + ((colDims N R wf).window (ix2 e 0) 1 : Int)).toNat = 0
      rw [col_start1, col_window1]; rfl

/-- A column's index set is its row range. -/
def colEquiv {n : Nat} : (⟨2, ![n, 1]⟩ : Shape).Idx ≃ Fin n where
  toFun i := i 0
  invFun e := ix2 e 0
  left_inv i := by
    have h1 : i 1 = (0 : Fin 1) := Fin.ext (by have h : (i 1).val < 1 := (i 1).isLt; show (i 1).val = 0; omega)
    have := eq_ix2 i
    rw [h1] at this
    exact this.symm
  right_inv _ := rfl

/-- Every index of a column is `(e, 0)`. -/
theorem eq_col {n : Nat} (j : (⟨2, ![n, 1]⟩ : Shape).Idx) : j = ix2 (j 0) 0 := (colEquiv.left_inv j).symm

/-- THE COLUMN SCATTER-ADD READ AT `(n, 0)`: the operand's element plus the sum of the updates whose destination word is `n`. -/
theorem scatterAdd_col_apply (x : FVec Ideal ⟨2, ![N, 1]⟩ .f32) (idx : IVec ⟨2, ![R, 1]⟩ w)
    (upd : FVec Ideal ⟨2, ![R, 1]⟩ .f32) (n : Fin N) :
    Host.scatterAdd (F := Ideal) (colDims N R wf) x idx upd (ix2 n 0)
      = x (ix2 n 0) + ∑ e ∈ Finset.univ.filter (fun e : Fin R => (idx (ix2 e 0)).toInt = (n.val : Int)), upd (ix2 e 0) := by
  show x (ix2 n 0) + ∑ j ∈ Finset.univ.filter (fun j => (colDims N R wf).resultIdx? j idx = some (ix2 n 0)), upd j = _
  congr 1
  refine Finset.sum_equiv (colEquiv (n := R)) (fun j => ?_) (fun j _ => ?_)
  · rw [Finset.mem_filter, Finset.mem_filter]
    obtain ⟨e, rfl⟩ : ∃ e : Fin R, j = ix2 e 0 := ⟨j 0, eq_col j⟩
    simp only [Finset.mem_univ, true_and]
    exact col_lands wf idx e n
  · exact congrArg upd (eq_col j)

end Col

end Idealize.ShloMosaic.ScatterAddRows

end
-- ==== Proof.LibIndexReads.lean ====
/-
  Small layout operations read at an index: a vector laid as a column, a scalar splat, the wrap of a negative index word
  laid as a column, a row of a two-row array and a column of a two-column array flattened, a one-column table flattened,
  two columns joined side by side, and a vector padded at its end and cut back to its length. Each says which element of
  the operand the result's element is; none depends on the element type.
-/
import Idealize.ShloMosaic.PureOps.Ideal
import Idealize.ShloMosaic.Lib.ValueIdx
import Idealize.ShloMosaic.Lib.Pipeline.Value

noncomputable section

namespace Idealize.ShloMosaic.IndexReads

open Idealize.ShloMosaic Idealize.ShloMosaic.ValueIdx

variable {α : Type}

/-- A vector laid as a column reads, at `(e, 0)`, the vector at `e`. -/
theorem col_apply {n : Nat} (h : (⟨1, ![n]⟩ : Shape).BroadcastsInDim ⟨2, ![n, 1]⟩ ![0])
    (x : (⟨1, ![n]⟩ : Shape).Idx → α) (e : Fin n) :
    broadcastInDim ⟨2, ![n, 1]⟩ ![0] h x (ix2 e 0) = x (ix1 e) :=
  broadcastInDim_apply _ h x (ix2 e 0) (ix1 e) (fun a => by
    obtain rfl : a = 0 := Subsingleton.elim _ _
    have he : e.val < n := e.isLt
    show e.val = if n = 1 then 0 else e.val
    split <;> omega)

/-- A scalar splat reads the scalar everywhere. -/
theorem splat_apply {t : Shape} (h : (⟨0, ![]⟩ : Shape).BroadcastsInDim t ![])
    (x : (⟨0, ![]⟩ : Shape).Idx → α) (j : t.Idx) :
    broadcastInDim t ![] h x j = x ix0 :=
  broadcastInDim_apply _ h x j ix0 (fun a => a.elim0)

/-- The wrap of a negative index word against an extent `K` (`x < 0 ? x + K : x`), laid as a column, read at `(e, 0)`. -/
theorem wrapCol_apply {n : Nat} (K : BitVec 32) (x : IVec ⟨1, ![n]⟩ 32)
    (h0 : (⟨0, ![]⟩ : Shape).BroadcastsInDim ⟨1, ![n]⟩ ![])
    (h : (⟨1, ![n]⟩ : Shape).BroadcastsInDim ⟨2, ![n, 1]⟩ ![0]) (e : Fin n) :
    broadcastInDim ⟨2, ![n, 1]⟩ ![0] h
        (select (cmpi .slt x (broadcastInDim ⟨1, ![n]⟩ ![] h0 (constantI ⟨0, ![]⟩ 32 0#32)))
          (addi x (broadcastInDim ⟨1, ![n]⟩ ![] h0 (constantI ⟨0, ![]⟩ 32 K))) x) (ix2 e 0)
      = Scalar.select (IntOp.cmpi .slt (x (ix1 e)) 0#32) (IntOp.addi (x (ix1 e)) K) (x (ix1 e)) := by
  rw [col_apply]
  show Scalar.select (IntOp.cmpi .slt (x (ix1 e)) (broadcastInDim ⟨1, ![n]⟩ ![] h0 (constantI ⟨0, ![]⟩ 32 0#32) (ix1 e)))
      (IntOp.addi (x (ix1 e)) (broadcastInDim ⟨1, ![n]⟩ ![] h0 (constantI ⟨0, ![]⟩ 32 K) (ix1 e))) (x (ix1 e)) = _
  rw [splat_apply, splat_apply]
  rfl

/-- Row `o` of a two-row array, flattened, reads at `e` the array at `(o, e)`. -/
theorem row_of2_apply {n : Nat} (o : Nat) (ho : o < 2) (x : (⟨2, ![2, n]⟩ : Shape).Idx → α)
    (hs : (⟨2, ![2, n]⟩ : Shape).Slices ![o, 0] ⟨2, ![1, n]⟩) (hc : (⟨2, ![1, n]⟩ : Shape).ShapeCasts ⟨1, ![n]⟩) (e : Fin n) :
    shapeCast ⟨1, ![n]⟩ (extractStridedSlice ⟨2, ![1, n]⟩ ![o, 0] x hs) hc (ix1 e) = x (ix2 ⟨o, ho⟩ e) := by
  rw [shapeCast_apply _ hc (ix1 e) (ix2 0 e) (by
    rw [Shape.rowMajor_val_two, Shape.rowMajor_val_one]; show 0 * n + e.val = e.val; omega)]
  exact extractStridedSlice_apply ![o, 0] x hs (ix2 0 e) (ix2 ⟨o, ho⟩ e) (fun a => match a with
    | ⟨0, _⟩ => by show o = o + 0; omega
    | ⟨1, _⟩ => by show e.val = 0 + e.val; omega)

/-- Column `k` of a two-column array, flattened, reads at `e` the array at `(e, k)`. -/
theorem col_of2_apply {n : Nat} (k : Nat) (hk : k < 2) (x : (⟨2, ![n, 2]⟩ : Shape).Idx → α)
    (hs : (⟨2, ![n, 2]⟩ : Shape).Slices ![0, k] ⟨2, ![n, 1]⟩) (hc : (⟨2, ![n, 1]⟩ : Shape).ShapeCasts ⟨1, ![n]⟩) (e : Fin n) :
    shapeCast ⟨1, ![n]⟩ (extractStridedSlice ⟨2, ![n, 1]⟩ ![0, k] x hs) hc (ix1 e) = x (ix2 e ⟨k, hk⟩) := by
  rw [shapeCast_apply _ hc (ix1 e) (ix2 e 0) (by
    rw [Shape.rowMajor_val_two, Shape.rowMajor_val_one]; show e.val * 1 + 0 = e.val; omega)]
  exact extractStridedSlice_apply ![0, k] x hs (ix2 e 0) (ix2 e ⟨k, hk⟩) (fun a => match a with
    | ⟨0, _⟩ => by show e.val = 0 + e.val; omega
    | ⟨1, _⟩ => by show k = k + 0; omega)

/-- A one-column table flattened reads at `e` the table at `(e, 0)`. -/
theorem flatCol_apply {n : Nat} (x : (⟨2, ![n, 1]⟩ : Shape).Idx → α)
    (hc : (⟨2, ![n, 1]⟩ : Shape).ShapeCasts ⟨1, ![n]⟩) (e : Fin n) :
    shapeCast ⟨1, ![n]⟩ x hc (ix1 e) = x (ix2 e 0) :=
  shapeCast_apply _ hc (ix1 e) (ix2 e 0) (by
    rw [Shape.rowMajor_val_two, Shape.rowMajor_val_one]; show e.val * 1 + 0 = e.val; omega)

/-- Two columns joined side by side: column 0 is the first. -/
theorem join2_left {n : Nat} (a b : (⟨2, ![n, 1]⟩ : Shape).Idx → α)
    (h : Shape.Concatenates [⟨2, ![n, 1]⟩, ⟨2, ![n, 1]⟩] ⟨2, ![n, 2]⟩ 1) (e : Fin n) :
    concatenate ⟨2, ![n, 2]⟩ 1 [⟨⟨2, ![n, 1]⟩, a⟩, ⟨⟨2, ![n, 1]⟩, b⟩] h (ix2 e 0) = a (ix2 e 0) :=
  concatenate_pair_apply_left 1 a b h (ix2 e 0) rfl (ix2 e 0) (fun c => match c with
    | ⟨0, _⟩ => rfl
    | ⟨1, _⟩ => rfl)

/-- Two columns joined side by side: column 1 is the second. -/
theorem join2_right {n : Nat} (a b : (⟨2, ![n, 1]⟩ : Shape).Idx → α)
    (h : Shape.Concatenates [⟨2, ![n, 1]⟩, ⟨2, ![n, 1]⟩] ⟨2, ![n, 2]⟩ 1) (e : Fin n) :
    concatenate ⟨2, ![n, 2]⟩ 1 [⟨⟨2, ![n, 1]⟩, a⟩, ⟨⟨2, ![n, 1]⟩, b⟩] h (ix2 e 1) = b (ix2 e 0) :=
  concatenate_pair_apply_right 1 a b h (ix2 e 1) rfl rfl (ix2 e 0) (fun c hc => match c, hc with
    | ⟨0, _⟩, _ => rfl
    | ⟨1, _⟩, hc => absurd rfl hc) rfl

/-- A vector padded at its end and then cut back to its first `n` entries reads, at `e`, the vector at `e`. -/
theorem pad_cut_apply {n p t : Nat} (x : (⟨1, ![n]⟩ : Shape).Idx → α) (y : (⟨1, ![p]⟩ : Shape).Idx → α)
    (h : Shape.Concatenates [⟨1, ![n]⟩, ⟨1, ![p]⟩] ⟨1, ![t]⟩ 0) (hs : (⟨1, ![t]⟩ : Shape).Slices ![0] ⟨1, ![n]⟩)
    (hnt : n ≤ t) (e : Fin n) :
    extractStridedSlice ⟨1, ![n]⟩ ![0] (concatenate ⟨1, ![t]⟩ 0 [⟨⟨1, ![n]⟩, x⟩, ⟨⟨1, ![p]⟩, y⟩] h) hs (ix1 e) = x (ix1 e) := by
  have he : e.val < n := e.isLt
  rw [extractStridedSlice_apply ![0] _ hs (ix1 e) (ix1 ⟨e.val, by omega⟩) (fun a => by
    obtain rfl : a = 0 := Subsingleton.elim _ _
    show e.val = 0 + e.val; omega)]
  exact concatenate_pair_apply_left 0 x y h (ix1 ⟨e.val, by omega⟩) rfl (ix1 e) (fun b => by
    obtain rfl : b = 0 := Subsingleton.elim _ _
    rfl)

/-- The first `n` entries cut out of a vector read, at `e`, the vector at `e`. -/
theorem prefix_apply {n t : Nat} (x : (⟨1, ![t]⟩ : Shape).Idx → α) (hs : (⟨1, ![t]⟩ : Shape).Slices ![0] ⟨1, ![n]⟩)
    (hnt : n ≤ t) (e : Fin n) :
    extractStridedSlice ⟨1, ![n]⟩ ![0] x hs (ix1 e) = x (ix1 ⟨e.val, Nat.lt_of_lt_of_le e.isLt hnt⟩) :=
  extractStridedSlice_apply ![0] x hs (ix1 e) (ix1 ⟨e.val, Nat.lt_of_lt_of_le e.isLt hnt⟩) (fun a => by
    obtain rfl : a = 0 := Subsingleton.elim _ _
    show e.val = 0 + e.val; omega)

/-- A vector padded at its end reads, at a position `j` below its length, the vector at `j`. -/
theorem padded_apply {n p t : Nat} (x : (⟨1, ![n]⟩ : Shape).Idx → α) (y : (⟨1, ![p]⟩ : Shape).Idx → α)
    (h : Shape.Concatenates [⟨1, ![n]⟩, ⟨1, ![p]⟩] ⟨1, ![t]⟩ 0) (j : Fin t) (hj : j.val < n) :
    concatenate ⟨1, ![t]⟩ 0 [⟨⟨1, ![n]⟩, x⟩, ⟨⟨1, ![p]⟩, y⟩] h (ix1 j) = x (ix1 ⟨j.val, hj⟩) :=
  concatenate_pair_apply_left 0 x y h (ix1 j) rfl (ix1 ⟨j.val, hj⟩) (fun b => by
    obtain rfl : b = 0 := Subsingleton.elim _ _
    rfl)

end Idealize.ShloMosaic.IndexReads

end
-- ==== Proof.KernelStages.lean ====
/-
  The kernel program's host lines as pure functions of the argument arrays, and each read at an index.

  Before the first region: the source and destination words of the edges (the two rows of the edge table, flattened);
  each node's type scale (the type table read at the node's wrapped and clamped type word); voltage and type scale joined
  as the two columns of one array, whose rows are gathered at the edges' wrapped and clamped source words; the two
  gathered columns, flattened, are the source voltage and source type scale of every edge. Between the regions: the edge
  messages summed at their destination words; every per-node array padded by 96 entries and laid out as 3907 rows of 128
  lanes. After the second region: the 3907 x 128 array flattened, cut back to the 500000 nodes and laid as a column.
-/
import proofs.«122822_j52106543235553_1_alg».proof.Proof.EdgeRegion
import proofs.«122822_j52106543235553_1_alg».proof.Proof.NodeRegion
import proofs.«122822_j52106543235553_1_alg».proof.Proof.Spec
import proofs.«122822_j52106543235553_1_alg».proof.Proof.LibGatherRows
import proofs.«122822_j52106543235553_1_alg».proof.Proof.LibScatterAddRows
import proofs.«122822_j52106543235553_1_alg».proof.Proof.LibIndexReads

set_option maxRecDepth 16384

noncomputable section

namespace Cert.KernelIdeal.Stages

open Cert.KernelIdeal Cert.KernelIdeal.Gen
open Idealize.ShloMosaic Idealize.ShloMosaic.TcCoe
open Idealize.ShloMosaic.ValueIdx Idealize.ShloMosaic.GatherRows Idealize.ShloMosaic.ScatterAddRows
open Idealize.ShloMosaic.IndexReads
open Cert.KernelIdeal.EdgeRegion (edgeFn)
open Cert.KernelIdeal.NodeRegion (nodeFn)
open Cert.Spec

/-! ## The stages, at any float instance -/

section Defs
variable {F : FTy → Type} [FloatOps F]

/-- The edges' source words: row 0 of the edge table, flattened. -/
def srcWords (x3 : IVec S2x16000000 32) : IVec S16000000 32 :=
  shapeCast S16000000 (extractStridedSlice S1x16000000 ![0, 0] x3 slices_S2x16000000_S1x16000000_0_0) shapeCasts_S1x16000000_S16000000

/-- The edges' destination words: row 1 of the edge table, flattened. -/
def dstWords (x3 : IVec S2x16000000 32) : IVec S16000000 32 :=
  shapeCast S16000000 (extractStridedSlice S1x16000000 ![1, 0] x3 slices_S2x16000000_S1x16000000_1_0) shapeCasts_S1x16000000_S16000000

/-- The nodes' type words wrapped against 64, as a column. -/
def typCol (x2 : IVec S500000 32) : IVec S500000x1 32 :=
  broadcastInDim S500000x1 ![0] bcast_S500000_S500000x1_0
    (select (cmpi .slt x2 (broadcastInDim S500000 ![] bcast_S_S500000 (constantI S_ 32 0#32)))
      (addi x2 (broadcastInDim S500000 ![] bcast_S_S500000 (constantI S_ 32 64#32))) x2)

/-- Each node's type scale: the flattened type table at the node's wrapped type word. -/
def nodeScale (x2 : IVec S500000 32) (x7 : FVec F S64x1 .f32) : FVec F S500000 .f32 :=
  Host.gather gather_S64_S500000x1_S500000_n_0_n_n_0_1_1 (shapeCast S64 x7 shapeCasts_S64x1_S64) (typCol x2)

/-- Voltage and type scale as the two columns of one array. -/
def stacked (x0 : FVec F S500000 .f32) (x2 : IVec S500000 32) (x7 : FVec F S64x1 .f32) : FVec F S500000x2 .f32 :=
  concatenate S500000x2 1 [⟨S500000x1, broadcastInDim S500000x1 ![0] bcast_S500000_S500000x1_0 x0⟩,
    ⟨S500000x1, broadcastInDim S500000x1 ![0] bcast_S500000_S500000x1_0 (nodeScale x2 x7)⟩]
    concatenates_S500000x1_S500000x1_S500000x2_d1

/-- The edges' source words wrapped against the number of nodes, as a column. -/
def srcCol (x3 : IVec S2x16000000 32) : IVec S16000000x1 32 :=
  broadcastInDim S16000000x1 ![0] bcast_S16000000_S16000000x1_0
    (select (cmpi .slt (srcWords x3) (broadcastInDim S16000000 ![] bcast_S_S16000000 (constantI S_ 32 0#32)))
      (addi (srcWords x3) (broadcastInDim S16000000 ![] bcast_S_S16000000 (constantI S_ 32 500000#32))) (srcWords x3))

/-- The two-column array's rows at the edges' sources. -/
def gathered (x0 : FVec F S500000 .f32) (x2 : IVec S500000 32) (x3 : IVec S2x16000000 32) (x7 : FVec F S64x1 .f32) :
    FVec F S16000000x2 .f32 :=
  Host.gather gather_S500000x2_S16000000x1_S16000000x2_1_0_n_n_0_1_12 (stacked x0 x2 x7) (srcCol x3)

/-- Every edge's source voltage. -/
def vSrc (x0 : FVec F S500000 .f32) (x2 : IVec S500000 32) (x3 : IVec S2x16000000 32) (x7 : FVec F S64x1 .f32) :
    FVec F S16000000 .f32 :=
  shapeCast S16000000 (extractStridedSlice S16000000x1 ![0, 0] (gathered x0 x2 x3 x7) slices_S16000000x2_S16000000x1_0_0)
    shapeCasts_S16000000x1_S16000000

/-- Every edge's source type scale. -/
def sSrc (x0 : FVec F S500000 .f32) (x2 : IVec S500000 32) (x3 : IVec S2x16000000 32) (x7 : FVec F S64x1 .f32) :
    FVec F S16000000 .f32 :=
  shapeCast S16000000 (extractStridedSlice S16000000x1 ![0, 1] (gathered x0 x2 x3 x7) slices_S16000000x2_S16000000x1_0_1)
    shapeCasts_S16000000x1_S16000000

/-- A per-edge array laid out as 125000 rows of 128 lanes. -/
def tiled (x : FVec F S16000000 .f32) : FVec F S125000x128 .f32 := shapeCast S125000x128 x shapeCasts_S16000000_S125000x128

/-- The first region's output from the arguments. -/
def edgeArr (x0 : FVec F S500000 .f32) (x2 : IVec S500000 32) (x3 : IVec S2x16000000 32) (x4 : FVec F S16000000 .f32)
    (x7 : FVec F S64x1 .f32) : FVec F S125000x128 .f32 :=
  edgeFn (tiled (vSrc x0 x2 x3 x7)) (tiled (sSrc x0 x2 x3 x7)) (tiled x4)

/-- The edge messages (an array of 125000 rows of 128 lanes, flattened) summed at their destination words. -/
def msgs (x3 : IVec S2x16000000 32) (o : FVec F S125000x128 .f32) : FVec F S500000 .f32 :=
  Host.scatterAdd scatter_S500000_S16000000x1_S16000000_n_0_0_1
    (broadcastInDim S500000 ![] bcast_S_S500000 (constant S_ .f32 0x00000000#32))
    (broadcastInDim S16000000x1 ![0] bcast_S16000000_S16000000x1_0 (dstWords x3))
    (shapeCast S16000000 o shapeCasts_S125000x128_S16000000)

/-- A per-node array padded by 96 copies of the float word `b` and laid out as 3907 rows of 128 lanes. -/
def padded (x : FVec F S500000 .f32) (b : BitVec 32) : FVec F S3907x128 .f32 :=
  shapeCast S3907x128 (concatenate S500096 0 [⟨S500000, x⟩, ⟨S96, broadcastInDim S96 ![] bcast_S_S96 (constant S_ .f32 b)⟩]
    concatenates_S500000_S96_S500096_d0) shapeCasts_S500096_S3907x128

/-- The second region's output from the arguments and the summed messages. -/
def nodeArr (x0 x1 msgArr x5 x6 : FVec F S500000 .f32) : FVec F S3907x128 .f32 :=
  nodeFn (padded x0 0x00000000#32) (padded msgArr 0x00000000#32) (padded x1 0x00000000#32) (padded x5 0x00000000#32)
    (padded x6 0x3F800000#32)

/-- The program's result from the second region's output: flattened, cut back to the nodes, laid as a column. -/
def result (o : FVec F S3907x128 .f32) : FVec F S500000x1 .f32 :=
  broadcastInDim S500000x1 ![0] bcast_S500000_S500000x1_0
    (extractStridedSlice S500000 ![0] (shapeCast S500096 o shapeCasts_S3907x128_S500096) slices_S500096_S500000_0)

/-- THE KERNEL PROGRAM'S RESULT as one function of the argument arrays. -/
def kernelOut (x0 x1 : FVec F S500000 .f32) (x2 : IVec S500000 32) (x3 : IVec S2x16000000 32) (x4 : FVec F S16000000 .f32)
    (x5 x6 : FVec F S500000 .f32) (x7 : FVec F S64x1 .f32) : FVec F S500000x1 .f32 :=
  result (nodeArr x0 x1 (msgs x3 (edgeArr x0 x2 x3 x4 x7)) x5 x6)

end Defs

/-! ## The stages read at an index, on the extended reals -/

variable (x0 x1 : FVec Ideal S500000 .f32) (x2 : IVec S500000 32) (x3 : IVec S2x16000000 32)
  (x4 : FVec Ideal S16000000 .f32) (x5 x6 : FVec Ideal S500000 .f32) (x7 : FVec Ideal S64x1 .f32)

theorem srcWords_apply (e : Fin 16000000) : srcWords x3 (ix1 e) = x3 (ix2 0 e) :=
  row_of2_apply 0 (by decide) x3 _ _ e

theorem dstWords_apply (e : Fin 16000000) : dstWords x3 (ix1 e) = x3 (ix2 1 e) :=
  row_of2_apply 1 (by decide) x3 _ _ e

theorem typCol_apply (n : Fin 500000) : typCol x2 (ix2 n 0) = wrap 64#32 (x2 (ix1 n)) :=
  wrapCol_apply 64#32 x2 _ _ n

theorem srcCol_apply (e : Fin 16000000) : srcCol x3 (ix2 e 0) = wrap 500000#32 (x3 (ix2 0 e)) := by
  unfold srcCol
  rw [wrapCol_apply, srcWords_apply]
  rfl

/-- A node's type scale is the type table at its wrapped and clamped type word. -/
theorem nodeScale_apply (n : Fin 500000) : nodeScale x2 x7 (ix1 n) = x7 (ix2 (typ x2 n) 0) := by
  unfold nodeScale
  show Host.gather (flatDims 64 500000 _) (shapeCast S64 x7 shapeCasts_S64x1_S64) (typCol x2) (ix1 n) = _
  rw [gather_flat_apply, flatCol_apply, typCol_apply]
  rfl

theorem stacked_apply0 (n : Fin 500000) : stacked x0 x2 x7 (ix2 n 0) = x0 (ix1 n) := by
  unfold stacked
  rw [join2_left, col_apply]

theorem stacked_apply1 (n : Fin 500000) : stacked x0 x2 x7 (ix2 n 1) = x7 (ix2 (typ x2 n) 0) := by
  unfold stacked
  rw [join2_right, col_apply, nodeScale_apply]

/-- The gathered rows are the two-column array's rows at the edges' wrapped and clamped source words. -/
theorem gathered_apply (e : Fin 16000000) (k : Fin 2) :
    gathered x0 x2 x3 x7 (ix2 e k) = stacked x0 x2 x7 (ix2 (src x3 e) k) := by
  unfold gathered
  show Host.gather (rowDims 500000 16000000 2 _) (stacked x0 x2 x7) (srcCol x3) (ix2 e k) = _
  rw [gather_rows_apply, srcCol_apply]
  rfl

theorem vSrc_apply (e : Fin 16000000) : vSrc x0 x2 x3 x7 (ix1 e) = x0 (ix1 (src x3 e)) := by
  unfold vSrc
  rw [col_of2_apply 0 (by decide)]
  exact (gathered_apply x0 x2 x3 x7 e 0).trans (stacked_apply0 x0 x2 x7 _)

theorem sSrc_apply (e : Fin 16000000) : sSrc x0 x2 x3 x7 (ix1 e) = x7 (ix2 (typ x2 (src x3 e)) 0) := by
  unfold sSrc
  rw [col_of2_apply 1 (by decide)]
  exact (gathered_apply x0 x2 x3 x7 e 1).trans (stacked_apply1 x0 x2 x7 _)

/-- The first region's output, flattened back, is edge `e`'s message at `e`: laying the three per-edge arrays out in
    rows and flattening the elementwise result is the elementwise result of the three arrays. -/
theorem edgeArr_flat_apply (e : Fin 16000000) :
    shapeCast S16000000 (edgeArr x0 x2 x3 x4 x7) shapeCasts_S125000x128_S16000000 (ix1 e) = edge x0 x2 x3 x4 x7 e := by
  have hv := congrFun (shapeCast_shapeCast (vSrc x0 x2 x3 x7) shapeCasts_S16000000_S125000x128 shapeCasts_S125000x128_S16000000) (ix1 e)
  have hs := congrFun (shapeCast_shapeCast (sSrc x0 x2 x3 x7) shapeCasts_S16000000_S125000x128 shapeCasts_S125000x128_S16000000) (ix1 e)
  have hw := congrFun (shapeCast_shapeCast x4 shapeCasts_S16000000_S125000x128 shapeCasts_S125000x128_S16000000) (ix1 e)
  show FloatOps.mulf (FloatOps.mulf (shapeCast S16000000 (shapeCast S125000x128 x4 shapeCasts_S16000000_S125000x128) shapeCasts_S125000x128_S16000000 (ix1 e))
      (FloatOps.maximumf (shapeCast S16000000 (shapeCast S125000x128 (vSrc x0 x2 x3 x7) shapeCasts_S16000000_S125000x128) shapeCasts_S125000x128_S16000000 (ix1 e)) (Scalar.ofBits .f32 0x00000000#32)))
      (shapeCast S16000000 (shapeCast S125000x128 (sSrc x0 x2 x3 x7) shapeCasts_S16000000_S125000x128) shapeCasts_S125000x128_S16000000 (ix1 e)) = _
  rw [hv, hs, hw, vSrc_apply, sSrc_apply]
  rfl

/-- The summed messages at node `n`. -/
theorem msgs_apply (n : Fin 500000) : msgs x3 (edgeArr x0 x2 x3 x4 x7) (ix1 n) = msg x0 x2 x3 x4 x7 n := by
  unfold msgs
  show Host.scatterAdd (F := Ideal) (flatDims 500000 16000000 _) _ _ _ (ix1 n) = _
  rw [scatterAdd_flat_apply, splat_apply]
  unfold msg
  refine congrArg (fun s : Ideal .f32 => z0 + s) ?_
  refine Finset.sum_congr ?_ (fun e _ => edgeArr_flat_apply x0 x2 x3 x4 x7 e)
  refine Finset.filter_congr (fun e _ => ?_)
  rw [col_apply, dstWords_apply]

/-- A padded and tiled per-node array, flattened back, reads the array at a position below 500000. -/
theorem padded_flat_apply (x : FVec Ideal S500000 .f32) (b : BitVec 32) (n : Fin 500000) :
    shapeCast S500096 (padded x b) shapeCasts_S3907x128_S500096 (ix1 ⟨n.val, by have := n.isLt; omega⟩) = x (ix1 n) := by
  unfold padded
  rw [congrFun (shapeCast_shapeCast _ shapeCasts_S500096_S3907x128 shapeCasts_S3907x128_S500096) _]
  exact padded_apply (n := 500000) (p := 96) (t := 500096) x _ _ ⟨n.val, by have := n.isLt; omega⟩ n.isLt

/-- THE KERNEL PROGRAM'S RESULT at `(n, 0)`: the update of node `n`. -/
theorem kernelOut_apply (n : Fin 500000) :
    kernelOut x0 x1 x2 x3 x4 x5 x6 x7 (ix2 n 0) = out x0 x1 x2 x3 x4 x5 x6 x7 n := by
  unfold kernelOut result
  rw [col_apply, prefix_apply _ _ (by decide) n]
  have h0 := padded_flat_apply x0 0x00000000#32 n
  have h1 := padded_flat_apply (msgs x3 (edgeArr x0 x2 x3 x4 x7)) 0x00000000#32 n
  have h2 := padded_flat_apply x1 0x00000000#32 n
  have h3 := padded_flat_apply x5 0x00000000#32 n
  have h4 := padded_flat_apply x6 0x3F800000#32 n
  show FloatOps.divf (FloatOps.addf (FloatOps.addf (FloatOps.addf (FloatOps.subf (Scalar.ofBits .f32 0x00000000#32)
      (shapeCast S500096 (padded x0 0x00000000#32) shapeCasts_S3907x128_S500096 (ix1 ⟨n.val, _⟩)))
      (shapeCast S500096 (padded (msgs x3 (edgeArr x0 x2 x3 x4 x7)) 0x00000000#32) shapeCasts_S3907x128_S500096 (ix1 ⟨n.val, _⟩)))
      (shapeCast S500096 (padded x1 0x00000000#32) shapeCasts_S3907x128_S500096 (ix1 ⟨n.val, _⟩)))
      (shapeCast S500096 (padded x5 0x00000000#32) shapeCasts_S3907x128_S500096 (ix1 ⟨n.val, _⟩)))
      (shapeCast S500096 (padded x6 0x3F800000#32) shapeCasts_S3907x128_S500096 (ix1 ⟨n.val, _⟩)) = _
  rw [h0, h1, h2, h3, h4, msgs_apply]
  unfold out
  rw [← zero_subf]
  rfl

end Cert.KernelIdeal.Stages

end
-- ==== Proof.KernelFold.lean ====
/-
  The kernel program's run, boundary by boundary. Its @main is three stretches of host lines around two kernel regions;
  the buffer contents at each boundary are a fold from the launch memory. Here each array a region reads when it is
  entered, each region's output when it is left, and at the end the result buffer, is identified with the pure stage
  functions of the argument arrays: so the result buffer after the run is the kernel program's result function of the
  arguments.
-/
import proofs.«122822_j52106543235553_1_alg».proof.Proof.KernelStages
import Idealize.ShloMosaic.Lib.StableHlo.Run

set_option maxRecDepth 16384

noncomputable section

namespace Cert.KernelIdeal.Fold

open Cert.KernelIdeal Cert.KernelIdeal.Gen Cert.KernelIdeal.Stages
open Idealize.ShloMosaic Idealize.ShloMosaic.TcCoe Idealize.ShloMosaic.Tactic Idealize.ShloMosaic.StableHlo
open Idealize.SL Idealize.SL.Sem

variable {F : FTy → Type} [FloatOps F]
variable (m : (ℓ : Loc nD τ sig) → Buf (Elt F) ℓ) (ρ : Dev nD → PrngReg)

/-- The argument arrays as launched, at their literal types. -/
abbrev arg0 (c : Dev nD) : FVec F S500000 .f32 := m ((c.tc : Thread nD τ).loc main_arg0)
abbrev arg1 (c : Dev nD) : FVec F S500000 .f32 := m ((c.tc : Thread nD τ).loc main_arg1)
abbrev arg2 (c : Dev nD) : IVec S500000 32 := m ((c.tc : Thread nD τ).loc main_arg2)
abbrev arg3 (c : Dev nD) : IVec S2x16000000 32 := m ((c.tc : Thread nD τ).loc main_arg3)
abbrev arg4 (c : Dev nD) : FVec F S16000000 .f32 := m ((c.tc : Thread nD τ).loc main_arg4)
abbrev arg5 (c : Dev nD) : FVec F S500000 .f32 := m ((c.tc : Thread nD τ).loc main_arg5)
abbrev arg6 (c : Dev nD) : FVec F S500000 .f32 := m ((c.tc : Thread nD τ).loc main_arg6)
abbrev arg7 (c : Dev nD) : FVec F S64x1 .f32 := m ((c.tc : Thread nD τ).loc main_arg7)

/-! ## The first region's entry -/

set_option maxHeartbeats 8000000 in
theorem entry0_v26 (c : Dev nD) :
    (V1 m ρ c main_v26 : FVec F S125000x128 .f32) = tiled (vSrc (arg0 m c) (arg2 m c) (arg3 m c) (arg7 m c)) := by
  show StableHlo.after hostOps0 (W0 m ρ c) (Proc.devRef .tc main_v26) = _
  after_results
  rfl

set_option maxHeartbeats 8000000 in
theorem entry0_v27 (c : Dev nD) :
    (V1 m ρ c main_v27 : FVec F S125000x128 .f32) = tiled (sSrc (arg0 m c) (arg2 m c) (arg3 m c) (arg7 m c)) := by
  show StableHlo.after hostOps0 (W0 m ρ c) (Proc.devRef .tc main_v27) = _
  after_results
  rfl

set_option maxHeartbeats 8000000 in
theorem entry0_v28 (c : Dev nD) : (V1 m ρ c main_v28 : FVec F S125000x128 .f32) = tiled (arg4 m c) := by
  show StableHlo.after hostOps0 (W0 m ρ c) (Proc.devRef .tc main_v28) = _
  after_results
  rfl

/-! ## The first region's exit, and what the second stretch reads beside it -/

/-- The first region leaves the edge messages in its output array. -/
theorem exit0 (c : Dev nD) :
    (W2 m ρ c (Proc.devRef .tc main_v29) : FVec F S125000x128 .f32)
      = edgeArr (arg0 m c) (arg2 m c) (arg3 m c) (arg4 m c) (arg7 m c) :=
  calc (W2 m ρ c (Proc.devRef .tc main_v29) : FVec F S125000x128 .f32)
    _ = (dat0 (V1 m ρ) c).arrAt 3 cfg0.N := W2_arr m ρ c 3
    _ = EdgeRegion.edgeFn (V1 m ρ c main_v26) (V1 m ρ c main_v27) (V1 m ρ c main_v28) := EdgeRegion.final (V1 m ρ) c
    _ = _ := by rw [entry0_v26 m ρ c, entry0_v27 m ρ c, entry0_v28 m ρ c]; rfl

set_option maxHeartbeats 8000000 in
/-- The destination words, made before the first region, are still there after it. -/
theorem kept_dst (c : Dev nD) : (W2 m ρ c (Proc.devRef .tc main_v3) : IVec S16000000 32) = dstWords (arg3 m c) :=
  (W2_of_ne m ρ c main_v3 (by decide)).trans (by
    show StableHlo.after hostOps0 (W0 m ρ c) (Proc.devRef .tc main_v3) = _
    after_results
    rfl)

set_option maxHeartbeats 8000000 in
theorem kept_arg0 (c : Dev nD) : (W2 m ρ c (Proc.devRef .tc main_arg0) : FVec F S500000 .f32) = arg0 m c :=
  (W2_of_ne m ρ c main_arg0 (by decide)).trans (by
    show StableHlo.after hostOps0 (W0 m ρ c) (Proc.devRef .tc main_arg0) = _
    after_results)

set_option maxHeartbeats 8000000 in
theorem kept_arg1 (c : Dev nD) : (W2 m ρ c (Proc.devRef .tc main_arg1) : FVec F S500000 .f32) = arg1 m c :=
  (W2_of_ne m ρ c main_arg1 (by decide)).trans (by
    show StableHlo.after hostOps0 (W0 m ρ c) (Proc.devRef .tc main_arg1) = _
    after_results)

set_option maxHeartbeats 8000000 in
theorem kept_arg5 (c : Dev nD) : (W2 m ρ c (Proc.devRef .tc main_arg5) : FVec F S500000 .f32) = arg5 m c :=
  (W2_of_ne m ρ c main_arg5 (by decide)).trans (by
    show StableHlo.after hostOps0 (W0 m ρ c) (Proc.devRef .tc main_arg5) = _
    after_results)

set_option maxHeartbeats 8000000 in
theorem kept_arg6 (c : Dev nD) : (W2 m ρ c (Proc.devRef .tc main_arg6) : FVec F S500000 .f32) = arg6 m c :=
  (W2_of_ne m ρ c main_arg6 (by decide)).trans (by
    show StableHlo.after hostOps0 (W0 m ρ c) (Proc.devRef .tc main_arg6) = _
    after_results)

/-! ## The second region's entry -/

set_option maxHeartbeats 8000000 in
theorem entry1_v36 (c : Dev nD) : (V3 m ρ c main_v36 : FVec F S3907x128 .f32) = padded (arg0 m c) 0x00000000#32 := by
  show StableHlo.after hostOps1 (W2 m ρ c) (Proc.devRef .tc main_v36) = _
  after_results
  rw [kept_arg0 m ρ c]
  rfl

set_option maxHeartbeats 8000000 in
theorem entry1_v39 (c : Dev nD) :
    (V3 m ρ c main_v39 : FVec F S3907x128 .f32)
      = padded (msgs (arg3 m c) (edgeArr (arg0 m c) (arg2 m c) (arg3 m c) (arg4 m c) (arg7 m c))) 0x00000000#32 := by
  show StableHlo.after hostOps1 (W2 m ρ c) (Proc.devRef .tc main_v39) = _
  after_results
  rw [kept_dst m ρ c, exit0 m ρ c]
  rfl

set_option maxHeartbeats 8000000 in
theorem entry1_v42 (c : Dev nD) : (V3 m ρ c main_v42 : FVec F S3907x128 .f32) = padded (arg1 m c) 0x00000000#32 := by
  show StableHlo.after hostOps1 (W2 m ρ c) (Proc.devRef .tc main_v42) = _
  after_results
  rw [kept_arg1 m ρ c]
  rfl

set_option maxHeartbeats 8000000 in
theorem entry1_v45 (c : Dev nD) : (V3 m ρ c main_v45 : FVec F S3907x128 .f32) = padded (arg5 m c) 0x00000000#32 := by
  show StableHlo.after hostOps1 (W2 m ρ c) (Proc.devRef .tc main_v45) = _
  after_results
  rw [kept_arg5 m ρ c]
  rfl

set_option maxHeartbeats 8000000 in
theorem entry1_v48 (c : Dev nD) : (V3 m ρ c main_v48 : FVec F S3907x128 .f32) = padded (arg6 m c) 0x3F800000#32 := by
  show StableHlo.after hostOps1 (W2 m ρ c) (Proc.devRef .tc main_v48) = _
  after_results
  rw [kept_arg6 m ρ c]
  rfl

/-! ## The second region's exit and the result -/

/-- The second region leaves the node updates (of the padded arrays) in its output array. -/
theorem exit1 (c : Dev nD) :
    (W4 m ρ c (Proc.devRef .tc main_v49) : FVec F S3907x128 .f32)
      = nodeArr (arg0 m c) (arg1 m c) (msgs (arg3 m c) (edgeArr (arg0 m c) (arg2 m c) (arg3 m c) (arg4 m c) (arg7 m c)))
          (arg5 m c) (arg6 m c) :=
  calc (W4 m ρ c (Proc.devRef .tc main_v49) : FVec F S3907x128 .f32)
    _ = (dat1 (V3 m ρ) c).arrAt 5 cfg1.N := W4_arr m ρ c 5
    _ = NodeRegion.nodeFn (V3 m ρ c main_v36) (V3 m ρ c main_v39) (V3 m ρ c main_v42) (V3 m ρ c main_v45) (V3 m ρ c main_v48) :=
        NodeRegion.final (V3 m ρ) c
    _ = _ := by rw [entry1_v36 m ρ c, entry1_v39 m ρ c, entry1_v42 m ρ c, entry1_v45 m ρ c, entry1_v48 m ρ c]; rfl

set_option maxHeartbeats 8000000 in
/-- THE RESULT BUFFER at the last boundary is the kernel program's result function of the argument arrays. -/
theorem result_eq (c : Dev nD) :
    (W5 m ρ c (Proc.devRef .tc main_v52) : FVec F S500000x1 .f32)
      = kernelOut (arg0 m c) (arg1 m c) (arg2 m c) (arg3 m c) (arg4 m c) (arg5 m c) (arg6 m c) (arg7 m c) := by
  show StableHlo.after hostOps2 (W4 m ρ c) (Proc.devRef .tc main_v52) = _
  after_results
  rw [exit1 m ρ c]
  rfl

end Cert.KernelIdeal.Fold

end
-- ==== Proof.RefValue.lean ====
/-
  The reference program's result, node by node. Its one result array [500000, 1] holds at (n, 0) the update of node n of
  the specification: every stage of the program is read at an index — the elementwise and layout stages by their generated
  read-at-an-index lemmas, the three gathers as reads at a wrapped and clamped row, the accumulating scatter as the sum of
  the edge messages whose destination word is n.
-/
import proofs.«122822_j52106543235553_1_alg».proof.Proof.Gen.ReferenceIdeal.Read
import proofs.«122822_j52106543235553_1_alg».proof.Proof.Spec
import proofs.«122822_j52106543235553_1_alg».proof.Proof.LibGatherRows
import proofs.«122822_j52106543235553_1_alg».proof.Proof.LibScatterAddRows

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Idealize.ShloMosaic.GatherRows Idealize.ShloMosaic.ScatterAddRows
open Cert.Spec

variable (x0 x1 : FVec Ideal S500000 .f32) (x2 : IVec S500000 32) (x3 : IVec S2x16000000 32)
  (x4 : FVec Ideal S16000000 .f32) (x5 x6 : FVec Ideal S500000 .f32) (x7 : FVec Ideal S64x1 .f32)

/-! ## Index bookkeeping of the layout stages -/

theorem idx_col {n : Nat} (e : Fin n) : (fun a : Fin 1 => match a with | ⟨0, _⟩ => (⟨((ix2 e (0 : Fin 1)) 0).val, ((ix2 e (0 : Fin 1)) 0).isLt⟩ : Fin n)) = ix1 e := by
  funext a; match a with | ⟨0, _⟩ => rfl

/-- The source words, flattened: entry `e` is `ei[0, e]`. -/
theorem srcWord_apply (e : Fin 16000000) : val_main_v2 (F := Ideal) x3 (ix1 e) = x3 (ix2 0 e) := by
  rw [val_main_v2_apply, val_main_v1_apply]
  refine congrArg x3 (funext fun a => Fin.ext ?_)
  match a with
  | ⟨0, _⟩ => rfl
  | ⟨1, _⟩ => show e.val % 16000000 = e.val; exact Nat.mod_eq_of_lt e.isLt

/-- The destination words, flattened: entry `e` is `ei[1, e]`. -/
theorem dstWord_apply (e : Fin 16000000) : val_main_v4 (F := Ideal) x3 (ix1 e) = x3 (ix2 1 e) := by
  rw [val_main_v4_apply, val_main_v3_apply]
  refine congrArg x3 (funext fun a => Fin.ext ?_)
  match a with
  | ⟨0, _⟩ => rfl
  | ⟨1, _⟩ => show e.val % 16000000 = e.val; exact Nat.mod_eq_of_lt e.isLt

/-- The wrapped source words as a column (the first copy the program makes). -/
theorem srcCol_apply (e : Fin 16000000) : val_main_v11 (F := Ideal) x3 (ix2 e 0) = wrap 500000#32 (x3 (ix2 0 e)) := by
  rw [val_main_v11_apply, val_main_v10_apply, val_main_v7_apply, val_main_v9_apply, val_main_v6_apply, val_main_v8_apply,
    val_main_c_apply, val_main_c_0_apply]
  rw [show idx_main_v11 (ix2 e 0) = ix1 e from funext fun a => match a with | ⟨0, _⟩ => rfl]
  rw [srcWord_apply]
  rfl

/-- The wrapped source words as a column (the second copy the program makes). -/
theorem srcCol'_apply (e : Fin 16000000) : val_main_v20 (F := Ideal) x3 (ix2 e 0) = wrap 500000#32 (x3 (ix2 0 e)) := by
  rw [val_main_v20_apply, val_main_v19_apply, val_main_v16_apply, val_main_v18_apply, val_main_v15_apply, val_main_v17_apply,
    val_main_c_1_apply, val_main_c_2_apply]
  rw [show idx_main_v20 (ix2 e 0) = ix1 e from funext fun a => match a with | ⟨0, _⟩ => rfl]
  rw [srcWord_apply]
  rfl

/-! ## The gathers -/

/-- The source voltage of edge `e`. -/
theorem srcVoltage_apply (e : Fin 16000000) : val_main_v12 (F := Ideal) x0 x3 (ix2 e 0) = x0 (ix1 (src x3 e)) := by
  unfold val_main_v12
  show Host.gather (rowDims 500000 16000000 1 _) (val_main_v0 (F := Ideal) x0) (val_main_v11 (F := Ideal) x3) (ix2 e 0) = _
  rw [gather_rows_apply, val_main_v0_apply, srcCol_apply]
  exact congrArg x0 (funext fun a => match a with | ⟨0, _⟩ => rfl)

/-- The type word of edge `e`'s source. -/
theorem srcType_apply (e : Fin 16000000) : val_main_v21 (F := Ideal) x2 x3 (ix1 e) = x2 (ix1 (src x3 e)) := by
  unfold val_main_v21
  show Host.gather (flatDims 500000 16000000 _) x2 (val_main_v20 (F := Ideal) x3) (ix1 e) = _
  rw [gather_flat_apply, srcCol'_apply]
  rfl

/-- The wrapped type word of edge `e`'s source, as a column. -/
theorem typCol_apply (e : Fin 16000000) :
    val_main_v27 (F := Ideal) x2 x3 (ix2 e 0) = wrap 64#32 (x2 (ix1 (src x3 e))) := by
  rw [val_main_v27_apply, val_main_v26_apply, val_main_v23_apply, val_main_v25_apply, val_main_v22_apply, val_main_v24_apply,
    val_main_c_3_apply, val_main_c_4_apply]
  rw [show idx_main_v27 (ix2 e 0) = ix1 e from funext fun a => match a with | ⟨0, _⟩ => rfl]
  rw [srcType_apply]
  rfl

/-- The type scale of edge `e`'s source. -/
theorem srcScale_apply (e : Fin 16000000) :
    val_main_v28 (F := Ideal) x2 x3 x7 (ix2 e 0) = x7 (ix2 (typ x2 (src x3 e)) 0) := by
  unfold val_main_v28
  show Host.gather (rowDims 64 16000000 1 _) x7 (val_main_v27 (F := Ideal) x2 x3) (ix2 e 0) = _
  rw [gather_rows_apply, typCol_apply]
  rfl

/-! ## The edge messages and their sums -/

/-- Edge `e`'s message. -/
theorem edge_apply (e : Fin 16000000) :
    val_main_v29 (F := Ideal) x0 x2 x3 x4 x7 (ix2 e 0) = edge x0 x2 x3 x4 x7 e := by
  rw [val_main_v29_apply, val_main_v14_apply, val_main_v13_apply, val_main_v5_apply, val_main_call0_v0_apply,
    val_main_call0_cst_apply, srcVoltage_apply, srcScale_apply]
  rw [show idx_main_v5 (ix2 e 0) = ix1 e from funext fun a => match a with | ⟨0, _⟩ => rfl]
  rfl

/-- The messages arriving at node `n`. -/
theorem msg_apply (n : Fin 500000) :
    val_main_v32 (F := Ideal) x0 x2 x3 x4 x7 (ix2 n 0) = msg x0 x2 x3 x4 x7 n := by
  unfold val_main_v32
  show Host.scatterAdd (F := Ideal) (colDims 500000 16000000 _) (val_main_v30 (F := Ideal)) (val_main_v31 (F := Ideal) x3)
    (val_main_v29 (F := Ideal) x0 x2 x3 x4 x7) (ix2 n 0) = _
  rw [scatterAdd_col_apply, val_main_v30_apply, val_main_cst_apply]
  unfold msg
  refine congrArg (fun s : Ideal .f32 => z0 + s) ?_
  refine Finset.sum_congr ?_ (fun e _ => edge_apply x0 x2 x3 x4 x7 e)
  refine Finset.filter_congr (fun e _ => ?_)
  rw [val_main_v31_apply]
  rw [show idx_main_v31 (ix2 e 0) = ix1 e from funext fun a => match a with | ⟨0, _⟩ => rfl]
  rw [dstWord_apply]

/-! ## The update -/

/-- THE RESULT at `(n, 0)`: the update of node `n`. -/
theorem out_apply (n : Fin 500000) :
    val_main_v40 (F := Ideal) x0 x1 x2 x3 x4 x5 x6 x7 (ix2 n 0) = out x0 x1 x2 x3 x4 x5 x6 x7 n := by
  rw [val_main_v40_apply, val_main_v38_apply, val_main_v36_apply, val_main_v34_apply, val_main_v33_apply, val_main_v0_apply,
    val_main_v35_apply, val_main_v37_apply, val_main_v39_apply, msg_apply]
  rw [show idx_main_v0 (ix2 n 0) = ix1 n from funext fun a => match a with | ⟨0, _⟩ => rfl,
    show idx_main_v35 (ix2 n 0) = ix1 n from funext fun a => match a with | ⟨0, _⟩ => rfl,
    show idx_main_v37 (ix2 n 0) = ix1 n from funext fun a => match a with | ⟨0, _⟩ => rfl,
    show idx_main_v39 (ix2 n 0) = ix1 n from funext fun a => match a with | ⟨0, _⟩ => rfl]
  rfl

end Cert.ReferenceIdeal.RefValue

end
-- ==== Proof.lean ====
/-
  One message-passing step on a graph of 500000 nodes and 16000000 edges: the kernel program against its plain reference,
  on the extended reals.

  Both programs compute, for every node n,

      out(n) = (((−v[n] + msg(n)) + stim[n]) + vrest[n]) / tau[n],
      msg(n) = 0 + Σ { (w[e] · max(v[src(e)], 0)) · tp[typ(src(e)), 0] : the destination word of edge e is n },

  where src(e) is the edge's source word wrapped once and clamped into the node range and typ(n) the node's type word
  wrapped and clamped into the 64 rows of the type table (Proof/Spec.lean). The reference gathers the voltage, the type
  word and the type scale of every edge's source one after the other, multiplies, and sums the messages into a column.
  The kernel program first gives every node its type scale, gathers voltage and scale together as two columns of one
  array, computes the messages in a first kernel over 25 tiles of the edges laid out in rows of 128, sums them into a flat
  array, pads the five per-node arrays to 3907 rows of 128 and updates all nodes in a second kernel, which writes 0 − v
  where the reference negates. Nothing is regrouped: the products and sums are taken in the same order on both sides,
  a sum of messages is a sum over the same set of edges, and 0 − x = −x holds on every extended real; so the inputs'
  finiteness is never used, and since gathers clamp and the accumulating scatter drops alike on both sides no range of
  the integer inputs is needed either.

  The three frames are the generated ones (the reference's is its generated run with the result dropped); the kernel's
  idealization rewrote nothing. For the value, the kernel program's run is taken with its result buffer read at the last
  segment boundary (Proof/RunNamed.lean), that buffer is identified with a pure function of the arguments boundary by
  boundary (Proof/KernelFold.lean over Proof/EdgeRegion.lean, Proof/NodeRegion.lean and Proof/KernelStages.lean), and
  both that function and the reference run's term are read at (n, 0) as out(n) (Proof/KernelStages.lean,
  Proof/RefValue.lean).
-/
import proofs.«122822_j52106543235553_1_alg».proof.Defs
import proofs.«122822_j52106543235553_1_alg».proof.Proof.Gen.Kernel
import proofs.«122822_j52106543235553_1_alg».proof.Proof.Gen.Kernel.Skeleton
import proofs.«122822_j52106543235553_1_alg».proof.Proof.Gen.Kernel.Launch
import proofs.«122822_j52106543235553_1_alg».proof.Proof.Gen.Kernel.Points
import proofs.«122822_j52106543235553_1_alg».proof.Proof.Gen.Kernel.Frame
import proofs.«122822_j52106543235553_1_alg».proof.Proof.Gen.KernelIdeal
import proofs.«122822_j52106543235553_1_alg».proof.Proof.Gen.KernelIdeal.Skeleton
import proofs.«122822_j52106543235553_1_alg».proof.Proof.Gen.KernelIdeal.Launch
import proofs.«122822_j52106543235553_1_alg».proof.Proof.Gen.KernelIdeal.Points
import proofs.«122822_j52106543235553_1_alg».proof.Proof.Gen.KernelIdeal.Frame
import proofs.«122822_j52106543235553_1_alg».proof.Proof.Gen.ReferenceIdeal
import proofs.«122822_j52106543235553_1_alg».proof.Proof.Gen.ReferenceIdeal.Run
import proofs.«122822_j52106543235553_1_alg».proof.Proof.Gen.ReferenceIdeal.Read
import proofs.«122822_j52106543235553_1_alg».proof.Proof.Gen.Pre_finite_inputs
import proofs.«122822_j52106543235553_1_alg».proof.Proof.RunNamed
import proofs.«122822_j52106543235553_1_alg».proof.Proof.KernelFold
import proofs.«122822_j52106543235553_1_alg».proof.Proof.RefValue
import Idealize.ShloMosaic.Adequacy
import Idealize.ShloMosaic.Init

set_option maxRecDepth 16384

noncomputable section

namespace Cert.Proof

open Idealize.ShloMosaic Idealize.SL.Sem
open Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's result array is the kernel program's result function of the same arguments: both hold the node
    update at every `(n, 0)`, and a column has no other index. -/
theorem reference_eq_kernel (x0 x1 : FVec Ideal ⟨1, ![500000]⟩ .f32) (x2 : IVec ⟨1, ![500000]⟩ 32)
    (x3 : IVec ⟨2, ![2, 16000000]⟩ 32) (x4 : FVec Ideal ⟨1, ![16000000]⟩ .f32) (x5 x6 : FVec Ideal ⟨1, ![500000]⟩ .f32)
    (x7 : FVec Ideal ⟨2, ![64, 1]⟩ .f32) :
    Cert.ReferenceIdeal.Read.val_main_v40 (F := Ideal) x0 x1 x2 x3 x4 x5 x6 x7
      = Cert.KernelIdeal.Stages.kernelOut (F := Ideal) x0 x1 x2 x3 x4 x5 x6 x7 := by
  funext i
  rw [Idealize.ShloMosaic.ScatterAddRows.eq_col i]
  exact (Cert.ReferenceIdeal.RefValue.out_apply x0 x1 x2 x3 x4 x5 x6 x7 (i 0)).trans
    (Cert.KernelIdeal.Stages.kernelOut_apply x0 x1 x2 x3 x4 x5 x6 x7 (i 0)).symm

/-- From memories agreeing on the arguments both programs end with the same result array: the kernel program's result
    function of the arguments. -/
theorem algebraic : Cert.algebraic_KernelIdeal_ReferenceIdeal := by
  intro m ρ m' ρ' _ hagree
  refine ⟨fun c => Cert.KernelIdeal.Stages.kernelOut (F := Ideal) (Cert.KernelIdeal.Fold.arg0 m c) (Cert.KernelIdeal.Fold.arg1 m c)
    (Cert.KernelIdeal.Fold.arg2 m c) (Cert.KernelIdeal.Fold.arg3 m c) (Cert.KernelIdeal.Fold.arg4 m c)
    (Cert.KernelIdeal.Fold.arg5 m c) (Cert.KernelIdeal.Fold.arg6 m c) (Cert.KernelIdeal.Fold.arg7 m c), ?_, ?_⟩
  · exact (θ_run Cert.KernelIdeal.defs _ _).mono
      (fun r h c => ⟨(h c).1.trans (Cert.KernelIdeal.Fold.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v40_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact reference_eq_kernel _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
